-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_

variable [Facts]

def fn {F : FTy → Type} [FloatOps F] (main_arg0 : FVec F S10000x128 .f32) (main_arg1 : FVec F S10000x10000 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  main_v8
-- ==== Kernel.lean ====
abbrev S10000x128 : Shape := ⟨2, ![10000, 128]⟩
abbrev S10000x10000 : Shape := ⟨2, ![10000, 10000]⟩
abbrev S256x10000 : Shape := ⟨2, ![256, 10000]⟩
abbrev S256x128 : Shape := ⟨2, ![256, 128]⟩
abbrev S128x128 : Shape := ⟨2, ![128, 128]⟩

abbrev nBuf : Space → Nat
  | .hbm => 3
  | .vmem => 6
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .local _ .vmem, ⟨0, _⟩ => ⟨S10000x128, .f32⟩
  | .local _ .vmem, ⟨1, _⟩ => ⟨S256x10000, .f32⟩
  | .local _ .vmem, ⟨2, _⟩ => ⟨S256x10000, .f32⟩
  | .local _ .vmem, ⟨3, _⟩ => ⟨S256x128, .f32⟩
  | .local _ .vmem, ⟨4, _⟩ => ⟨S256x128, .f32⟩
  | .local _ .vmem, ⟨5, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S256x10000_S256x10000_0_0 : ∀ a, (![0, 0] : Fin 2 → Nat) a + S256x10000.size a ≤ S256x10000.size a
  h_S256x10000 : 0 < S256x10000.numel
  inb_S256x128_S256x128_0_0 : ∀ a, (![0, 0] : Fin 2 → Nat) a + S256x128.size a ≤ S256x128.size a
  h_S256x128 : 0 < S256x128.numel
  dot_S10000x128_S128x128_S10000x128_1_0_0_1_n_n_wf : DotDims.WF S10000x128 S128x128 S10000x128 [1] [0] [0] [1] [] []
  dot_S256x10000_S10000x128_S256x128_1_0_0_1_n_n_wf : DotDims.WF S256x10000 S10000x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S256x10000.size a < S10000x10000.size a
  hwx0_1 : ∀ i : grid0.Coords, EltTy.bits .f32 = 32 ∨ (Rect.unit (s := S10000x10000) (fun a => cc0_transform_1 i a * S256x10000.size a) (fun a => (Pipeline.Clip.of (cc0_transform_1 i a) (S256x10000.size a) (S10000x10000.size a)).extent (S256x10000.size a)) fun a => Pipeline.Clip.inb (Pipeline.Clip.ok_of (hstart0_1 i a))).WholeWords (EltTy.packing .f32)
  hwxs0_1 : ∀ i : grid0.Coords, EltTy.bits .f32 = 32 ∨ (Rect.unit (s := S256x10000) (fun _ => 0) (fun a => (Pipeline.Clip.of (cc0_transform_1 i a) (S256x10000.size a) (S10000x10000.size a)).extent (S256x10000.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S256x128.size a < S10000x128.size a
  hwx0_2 : ∀ i : grid0.Coords, EltTy.bits .f32 = 32 ∨ (Rect.unit (s := S10000x128) (fun a => cc0_transform_2 i a * S256x128.size a) (fun a => (Pipeline.Clip.of (cc0_transform_2 i a) (S256x128.size a) (S10000x128.size a)).extent (S256x128.size a)) fun a => Pipeline.Clip.inb (Pipeline.Clip.ok_of (hstart0_2 i a))).WholeWords (EltTy.packing .f32)
  hwxs0_2 : ∀ i : grid0.Coords, EltTy.bits .f32 = 32 ∨ (Rect.unit (s := S256x128) (fun _ => 0) (fun a => (Pipeline.Clip.of (cc0_transform_2 i a) (S256x128.size a) (S10000x128.size a)).extent (S256x128.size a)) fun a => (Nat.zero_add _).trans_le (Pipeline.Clip.extent_le (Pipeline.Clip.ok_of (hstart0_2 i a)))).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S256x10000_S10000x128_S256x128_1_0_0_1_n_n : DotDims S256x10000 S10000x128 S256x128 where
  lhsContracting := [1]
  rhsContracting := [0]
  lhsNonContracting := [0]
  rhsNonContracting := [1]
  lhsBatch := []
  rhsBatch := []
  wf := dot_S256x10000_S10000x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S256x10000.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v0) S256x128.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S_ : Shape := ⟨0, ![]⟩
abbrev S10000 : Shape := ⟨1, ![10000]⟩
abbrev S10000x1 : Shape := ⟨2, ![10000, 1]⟩

abbrev nBuf : Space → Nat
  | .hbm => 76
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x128, .f32⟩
  | .hbm, ⟨3, _⟩ => ⟨S_, .f32⟩
  | .hbm, ⟨4, _⟩ => ⟨S10000, .f32⟩
  | .hbm, ⟨5, _⟩ => ⟨S10000x1, .f32⟩
  | .hbm, ⟨6, _⟩ => ⟨S10000x1, .f32⟩
  | .hbm, ⟨7, _⟩ => ⟨S_, .f32⟩
  | .hbm, ⟨8, _⟩ => ⟨S_, .f32⟩
  | .hbm, ⟨9, _⟩ => ⟨S10000x1, .f32⟩
  | .hbm, ⟨10, _⟩ => ⟨S10000x1, .f32⟩
  | .hbm, ⟨11, _⟩ => ⟨S_, .f32⟩
  | .hbm, ⟨12, _⟩ => ⟨S10000x1, .f32⟩
  | .hbm, ⟨13, _⟩ => ⟨S10000x1, .f32⟩
  | .hbm, ⟨14, _⟩ => ⟨S10000x128, .f32⟩
  | .hbm, ⟨15, _⟩ => ⟨S10000x128, .f32⟩
  | .hbm, ⟨16, _⟩ => ⟨S_, .f32⟩
  | .hbm, ⟨17, _⟩ => ⟨S10000x1, .f32⟩
  | .hbm, ⟨18, _⟩ => ⟨S10000x1, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S10000x1, .f32⟩
  | .hbm, ⟨23, _⟩ => ⟨S10000x1, .f32⟩
  | .hbm, ⟨24, _⟩ => ⟨S_, .f32⟩
  | .hbm, ⟨25, _⟩ => ⟨S10000x1, .f32⟩
  | .hbm, ⟨26, _⟩ => ⟨S10000x1, .f32⟩
  | .hbm, ⟨27, _⟩ => ⟨S10000x1, .f32⟩
  | .hbm, ⟨28, _⟩ => ⟨S10000x1, .f32⟩
  | .hbm, ⟨29, _⟩ => ⟨S10000x1, .f32⟩
  | .hbm, ⟨30, _⟩ => ⟨S10000x1, .f32⟩
  | .hbm, ⟨31, _⟩ => ⟨S_, .f32⟩
  | .hbm, ⟨32, _⟩ => ⟨S10000x1, .f32⟩
  | .hbm, ⟨33, _⟩ => ⟨S10000x1, .f32⟩
  | .hbm, ⟨34, _⟩ => ⟨S10000x128, .f32⟩
  | .hbm, ⟨35, _⟩ => ⟨S10000x128, .f32⟩
  | .hbm, ⟨36, _⟩ => ⟨S10000x128, .f32⟩
  | .hbm, ⟨37, _⟩ => ⟨S10000x128, .f32⟩
  | .hbm, ⟨38, _⟩ => ⟨S_, .f32⟩
  | .hbm, ⟨39, _⟩ => ⟨S10000, .f32⟩
  | .hbm, ⟨40, _⟩ => ⟨S10000x1, .f32⟩
  | .hbm, ⟨41, _⟩ => ⟨S10000x1, .f32⟩
  | .hbm, ⟨42, _⟩ => ⟨S_, .f32⟩
  | .hbm, ⟨43, _⟩ => ⟨S_, .f32⟩
  | .hbm, ⟨44, _⟩ => ⟨S10000x1, .f32⟩
  | .hbm, ⟨45, _⟩ => ⟨S10000x1, .f32⟩
  | .hbm, ⟨46, _⟩ => ⟨S_, .f32⟩
  | .hbm, ⟨47, _⟩ => ⟨S10000x1, .f32⟩
  | .hbm, ⟨48, _⟩ => ⟨S10000x1, .f32⟩
  | .hbm, ⟨49, _⟩ => ⟨S10000x1, .f32⟩
  | .hbm, ⟨50, _⟩ => ⟨S10000x128, .f32⟩
  | .hbm, ⟨51, _⟩ => ⟨S10000x128, .f32⟩
  | .hbm, ⟨52, _⟩ => ⟨S_, .f32⟩
  | .hbm, ⟨53, _⟩ => ⟨S10000x1, .f32⟩
  | .hbm, ⟨54, _⟩ => ⟨S10000x1, .f32⟩
  | .hbm, ⟨55, _⟩ => ⟨S10000x128, .f32⟩
  | .hbm, ⟨56, _⟩ => ⟨S10000x128, .f32⟩
  | .hbm, ⟨57, _⟩ => ⟨S10000x128, .f32⟩
  | .hbm, ⟨58, _⟩ => ⟨S_, .f32⟩
  | .hbm, ⟨59, _⟩ => ⟨S10000, .f32⟩
  | .hbm, ⟨60, _⟩ => ⟨S10000x1, .f32⟩
  | .hbm, ⟨61, _⟩ => ⟨S10000x1, .f32⟩
  | .hbm, ⟨62, _⟩ => ⟨S_, .f32⟩
  | .hbm, ⟨63, _⟩ => ⟨S_, .f32⟩
  | .hbm, ⟨64, _⟩ => ⟨S10000x1, .f32⟩
  | .hbm, ⟨65, _⟩ => ⟨S10000x1, .f32⟩
  | .hbm, ⟨66, _⟩ => ⟨S10000x128, .f32⟩
  | .hbm, ⟨67, _⟩ => ⟨S10000x128, .f32⟩
  | .hbm, ⟨68, _⟩ => ⟨S_, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S10000x1, .f32⟩
  | .hbm, ⟨73, _⟩ => ⟨S10000x1, .i1⟩
  | .hbm, ⟨74, _⟩ => ⟨S10000x128, .i1⟩
  | .hbm, ⟨75, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_call1_v0 : Ref sig .tc := ⟨.hbm, 8, rfl⟩
abbrev main_call1_v1 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_cst_3 : Ref sig .tc := ⟨.hbm, 20, rfl⟩
abbrev main_call2_v0 : Ref sig .tc := ⟨.hbm, 21, rfl⟩
abbrev main_call2_v1 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call3_v0 : Ref sig .tc := ⟨.hbm, 37, rfl⟩
abbrev main_call3_cst : Ref sig .tc := ⟨.hbm, 38, rfl⟩
abbrev main_call3_v1 : Ref sig .tc := ⟨.hbm, 39, rfl⟩
abbrev main_call3_v2 : Ref sig .tc := ⟨.hbm, 40, rfl⟩
abbrev main_v18 : Ref sig .tc := ⟨.hbm, 41, rfl⟩
abbrev main_cst_5 : Ref sig .tc := ⟨.hbm, 42, rfl⟩
abbrev main_call4_v0 : Ref sig .tc := ⟨.hbm, 43, rfl⟩
abbrev main_call4_v1 : Ref sig .tc := ⟨.hbm, 44, rfl⟩
abbrev main_v19 : Ref sig .tc := ⟨.hbm, 45, rfl⟩
abbrev main_cst_6 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_cst_7 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_call5_v0 : Ref sig .tc := ⟨.hbm, 57, rfl⟩
abbrev main_call5_cst : Ref sig .tc := ⟨.hbm, 58, rfl⟩
abbrev main_call5_v1 : Ref sig .tc := ⟨.hbm, 59, rfl⟩
abbrev main_call5_v2 : Ref sig .tc := ⟨.hbm, 60, rfl⟩
abbrev main_v29 : Ref sig .tc := ⟨.hbm, 61, rfl⟩
abbrev main_cst_8 : Ref sig .tc := ⟨.hbm, 62, rfl⟩
abbrev main_call6_v0 : Ref sig .tc := ⟨.hbm, 63, rfl⟩
abbrev main_call6_v1 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_cst_9 : Ref sig .tc := ⟨.hbm, 68, rfl⟩
abbrev main_v33 : Ref sig .tc := ⟨.hbm, 69, rfl⟩
abbrev main_v34 : Ref sig .tc := ⟨.hbm, 70, rfl⟩
abbrev main_cst_10 : Ref sig .tc := ⟨.hbm, 71, rfl⟩
abbrev main_v35 : Ref sig .tc := ⟨.hbm, 72, rfl⟩
abbrev main_v36 : Ref sig .tc := ⟨.hbm, 73, rfl⟩
abbrev main_call7_v0 : Ref sig .tc := ⟨.hbm, 74, rfl⟩
abbrev main_v37 : Ref sig .tc := ⟨.hbm, 75, rfl⟩

abbrev nD : Nat := 1
abbrev τ : Topo := Topo.v7x

variable {F : FTy → Type} [FloatOps F]

class Facts₀ : Prop where
  reducesTo_S10000x128_S10000_d1 : S10000x128.ReducesTo [1] S10000
  h_S_ : 0 < S_.numel
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x128_0_1 : S10000x1.BroadcastsInDim S10000x128 (![0, 1] : Fin 2 → Fin S10000x128.rank)
  bcast_S_S10000x128 : S_.BroadcastsInDim S10000x128 (![] : Fin 0 → Fin S10000x128.rank)
  dot_S10000x10000_S10000x128_S10000x128_1_0_0_1_n_n_wf : DotDims.WF S10000x10000 S10000x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.BodyK.lean ====
/-
  The kernel body as a separation-logic triple on whole staging buffers, at any float instance.

  At the first grid point the body loads `x`'s buffer whole, stores the tangent rows (the first payload of `x`) over
  the whole scratch, then loads the matrix block and the scratch — which now reads the tangent rows just stored — and
  stores the result block (the second payload of the matrix block and the tangent rows) over the whole result buffer.
  At every later point it skips the first store: the scratch is read as the earlier points left it.
  Either way `x`'s and the matrix's buffers end as they were handed in.
-/
import proofs.«139651_g60404420051467_cont_9to1_m_1209_17_alg».proof.Proof.Gen.Kernel.Skeleton
import proofs.«139651_g60404420051467_cont_9to1_m_1209_17_alg».proof.Proof.Gen.Kernel.Frame
import Idealize.ShloMosaic.Lib.Pipeline.Value
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: the point is the first. -/
abbrev firstPoint (i : grid0.Coords) : Prop :=
  (Scalar.cmpi .ne (Scalar.extui (Scalar.cmpi .eq (BitVec.ofNat 32 (i 0).val) 0#32)) 0#32) = 1#1

/-- It holds at point 0 and nowhere else on the grid. -/
theorem firstPoint_iff : ∀ t : Fin cfg0.N, firstPoint (grid0.coords t) ↔ t.val = 0 :=
  (by decide +kernel : ∀ t : Fin grid0.N, firstPoint (grid0.coords t) ↔ t.val = 0)

/-- The whole-buffer rectangle's offsets are zeros. -/
theorem hz : (![0, 0] : Fin 2 → Nat) = fun _ => 0 := funext fun a => by fin_cases a <;> rfl

/-- One store through the whole-shape rectangle leaves its payload, whatever the buffer held. -/
theorem read_store_whole {κ : Kind} {sp : Space} {n0 n1 : Nat} {e : EltTy} (v : View sig κ sp ⟨2, ![n0, n1]⟩ e)
    (f : v.ty.Contents (Elt F))
    (inb : ∀ a, (![0, 0] : Fin 2 → Nat) a + (⟨2, ![n0, n1]⟩ : Shape).size a ≤ (⟨2, ![n0, n1]⟩ : Shape).size a)
    (w : (⟨2, ![n0, n1]⟩ : Shape).Idx → Elt F e) :
    v.read (Elt F) (v.writes (Elt F) f [⟨Rect.unit ![0, 0] (⟨2, ![n0, n1]⟩ : Shape).size inb, w⟩]) = w := by
  rw [View.read_writes_eq_canon _ _ _ (fun y => ⟨_, List.mem_singleton_self _, View.mem_set_unit_zero hz inb y⟩),
    View.canon_unit_zero hz]

/-- A load through the whole-shape rectangle reads the contents. -/
theorem load_whole {κ : Kind} {sp : Space} {n0 n1 : Nat} {e : EltTy} (v : View sig κ sp ⟨2, ![n0, n1]⟩ e)
    (f : v.ty.Contents (Elt F))
    (inb : ∀ a, (![0, 0] : Fin 2 → Nat) a + (⟨2, ![n0, n1]⟩ : Shape).size a ≤ (⟨2, ![n0, n1]⟩ : Shape).size a) :
    v.readAt (Elt F) (Rect.unit ![0, 0] (⟨2, ![n0, n1]⟩ : Shape).size inb).toLoadRect f = v.read (Elt F) f := by
  rw [View.readAt_eq_ld, View.ld_unit_zero hz]

/-- A load through it of what one store through it left reads the payload. -/
theorem load_after_store_whole {κ : Kind} {sp : Space} {n0 n1 : Nat} {e : EltTy} (v : View sig κ sp ⟨2, ![n0, n1]⟩ e)
    (inb : ∀ a, (![0, 0] : Fin 2 → Nat) a + (⟨2, ![n0, n1]⟩ : Shape).size a ≤ (⟨2, ![n0, n1]⟩ : Shape).size a)
    (w : (⟨2, ![n0, n1]⟩ : Shape).Idx → Elt F e) :
    v.readCov [⟨Rect.unit ![0, 0] (⟨2, ![n0, n1]⟩ : Shape).size inb, w⟩] (Rect.unit ![0, 0] (⟨2, ![n0, n1]⟩ : Shape).size inb).toLoadRect = w :=
  View.readCov_unit_zero v hz inb w

/-- THE BODY AT THE FIRST POINT: the scratch ends holding the first payload of `x`'s buffer (the tangent rows), the
    result buffer the second payload of the matrix block and those rows, the two input buffers as they were. -/
theorem body_first (c : Dev nD) (i : grid0.Coords)
    (arg1 : Memref sig .tc .vmem S10000x128 .f32) (harg1 : arg1.IsWhole) (arg2 : Memref sig .tc .vmem S256x10000 .f32) (harg2 : arg2.IsWhole)
    (arg3 : Memref sig .tc .vmem S256x128 .f32) (harg3 : arg3.IsWhole) (arg4 : Memref sig .tc .vmem S10000x128 .bf16) (harg4 : arg4.IsWhole)
    (hc : firstPoint i)
    (X0 : Vec F S10000x128 .f32) (X1 : Vec F S256x10000 .f32) (X2 : Vec F S256x128 .f32) (S : Vec F S10000x128 .bf16)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare S
          ∗ (iprop(owns (c : Thread nD τ) arg1 fullShare X0 ∗ owns (c : Thread nD τ) arg2 fullShare X1
              ∗ owns (c : Thread nD τ) arg3 fullShare (k0_pay3 X1 (k0_pay2 X0)) ∗ owns (c : Thread nD τ) arg4 fullShare (k0_pay2 X0)) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_store_whole, load_after_store_whole, load_whole, load_whole, hf0, hf1]
  · iexists _; isplitr
    swap; · iexact H3
    ipureintro
    sl_unfold_words
    rw [read_store_whole, load_whole, hf0]

/-- THE BODY AT A LATER POINT: the scratch is only read; the result buffer ends holding the second payload of the
    matrix block and the scratch's contents, the other three buffers as they were. -/
theorem body_later (c : Dev nD) (i : grid0.Coords)
    (arg1 : Memref sig .tc .vmem S10000x128 .f32) (harg1 : arg1.IsWhole) (arg2 : Memref sig .tc .vmem S256x10000 .f32) (harg2 : arg2.IsWhole)
    (arg3 : Memref sig .tc .vmem S256x128 .f32) (harg3 : arg3.IsWhole) (arg4 : Memref sig .tc .vmem S10000x128 .bf16) (harg4 : arg4.IsWhole)
    (hc : ¬firstPoint i)
    (X0 : Vec F S10000x128 .f32) (X1 : Vec F S256x10000 .f32) (X2 : Vec F S256x128 .f32) (S : Vec F S10000x128 .bf16)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare S
          ∗ (iprop(owns (c : Thread nD τ) arg1 fullShare X0 ∗ owns (c : Thread nD τ) arg2 fullShare X1
              ∗ owns (c : Thread nD τ) arg3 fullShare (k0_pay3 X1 S) ∗ owns (c : Thread nD τ) arg4 fullShare S) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_store_whole, load_whole, load_whole, hf1, hf3]
  · iexists _; isplitr; · ipureintro; exact hf3
    iexact H3

end Cert.Kernel.Body

end
-- ==== Proof.FrameK.lean ====
/-
  The word-level kernel's frame.

  The frame claim says only that the program runs to its end without a fault and leaves its two argument arrays as
  they were; nothing about the result. So the proof data forgets all three windows — each staging buffer is handed
  to the body at some contents and taken back at some contents — and keeps the region's own invariant throughout (the
  scratch at some contents). The body runs on any contents: at the first point it also stores over the scratch.
  The two argument arrays are inputs of the pipeline, which never writes an input's array.
-/
import proofs.«139651_g60404420051467_cont_9to1_m_1209_17_alg».proof.Proof.BodyK

set_option maxRecDepth 16384

noncomputable section

namespace Cert.Kernel.FrameK

open Cert.Kernel Cert.Kernel.Gen Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Each window's current staging buffer at point `t`, and that it is a whole buffer; the scratch. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev scM : Memref sig .tc .vmem S10000x128 .bf16 := Memref.whole cc0_scratch0

/-- The region's invariant with the scratch as a buffer owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-- The proof data: the arrays as the region finds them; what the body leaves in the staging buffers unnamed (every
    window is forgotten); the region's own invariant at every position. -/
def dats (_ : Fin 1) (c : Dev nD) : Dat τ (Elt F) Unit ℕ (UR sig nD τ) ℕ cfg0 c where
  A w := V m c (Pipeline.arrRef spec0 w)
  after w t := Dat.unnamed w t
  Φ _ := Pipeline.ΦA spec0 c
  q _ := fullShare
  owed _ := 0

/-- Every window is forgotten. -/
abbrev all : Fin cfg0.W → Bool := fun _ => true

/-- What the body is called with at point `t`, and what it returns: the invariant and the three buffers at some contents. -/
def bodyPre (c : Dev nD) (t : Fin cfg0.N) : sProp 𝕄 :=
  iprop((dats m 0 c).Φ t.castSucc ∗ (dats m 0 c).owesAt () t.castSucc
    ∗ (∃ X, owns (c : Thread nD τ) (ms0 t) fullShare X)
    ∗ (∃ X, owns (c : Thread nD τ) (ms1 t) fullShare X)
    ∗ (∃ X, owns (c : Thread nD τ) (ms2 t) fullShare X))

def bodyPost (c : Dev nD) (t : Fin cfg0.N) : sProp 𝕄 :=
  iprop((dats m 0 c).Φ t.succ ∗ (dats m 0 c).owesAt () t.succ
    ∗ (∃ X, owns (c : Thread nD τ) (ms0 t) fullShare X)
    ∗ (∃ X, owns (c : Thread nD τ) (ms1 t) fullShare X)
    ∗ (∃ X, owns (c : Thread nD τ) (ms2 t) fullShare X))

/-- The body at any point, on any contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, PhiA_eq]
  iintro ⟨⟨⟨%S, HS⟩, Hg⟩, Ho, ⟨%X0, H0⟩, ⟨%X1, H1⟩, ⟨%X2, H2⟩⟩
  by_cases hz : t.val = 0
  · iapply (body_first (F := F) c (grid0.coords t) (ms0 t) (hs0 t) (ms1 t) (hs1 t) (ms2 t) (hs2 t) scM (Memref.isWhole_whole _)
      ((firstPoint_iff t).mpr hz) X0 X1 X2 S Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; iexact HS
      iexact Hg
    isplitl [Ho]; · iexact Ho
    isplitl [H0]; · iexists _; iexact H0
    isplitl [H1]; · iexists _; iexact H1
    iexists _; iexact H2
  · iapply (body_later (F := F) c (grid0.coords t) (ms0 t) (hs0 t) (ms1 t) (hs1 t) (ms2 t) (hs2 t) scM (Memref.isWhole_whole _)
      (fun h => hz ((firstPoint_iff t).mp h)) X0 X1 X2 S Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexists _; iexact HS
      iexact Hg
    isplitl [Ho]; · iexact Ho
    isplitl [H0]; · iexists _; iexact H0
    isplitl [H1]; · iexists _; iexact H1
    iexists _; iexact H2

/-- The library's body obligation, every window forgotten. -/
theorem body_obligation (c : Dev nD) :
    BodyObligationLoose (dats (F := F) m 0 c) (defs₀ (F := F)) Variants.none () Set.univ all := fun t => by
  -- with every window forgotten the conjunction handed over and the one taken back are one term: one rewrite opens both
  rw [bigSep_W0]
  exact sound_body m c t

set_option backward.isDefEq.respectTransparency.types false in
/-- At the compiled mesh, for any values, from any memory with zero counters: every weakly fair execution of @main
    terminates, and in every final state each input array holds what it held at the region's entry. -/
theorem run_main :
    θ_run defs (onTc (τ := τ) (main (F := F))) (s₀ m ρ) (RDat.FramePost cfg0 (fun c => (dats m 0 c).toRForget all) (V m)) :=
  Pipeline.RDat.θ_run_frame cfgs (0 : Fin 1) launch0 defs₀ Variants.none (fun c => (dats m 0 c).toRForget all) m ρ main
    (hbody := fun c => (body_obligation m c).toRForget)
    (hshare := fun c w => (dats m 0 c).share_full (fun _ => rfl) w)
    (howed := fun _ _ => rfl) (V := V m) (hmain := hmain m Variants.none) (hA := fun _ _ => rfl) (hΦ := fun _ _ => rfl)

/-- THE FRAME: the run, read at the two argument arrays. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(RDat.FramePost.arr_in h c 0 rfl).trans (V_main_arg0 m c),
      (RDat.FramePost.arr_in h c 1 rfl).trans (V_main_arg1 m c)⟩) (run_main m ρ)

end Cert.Kernel.FrameK

end
-- ==== Proof.Body.lean ====
/-
  The kernel body as a separation-logic triple on whole staging buffers, at any float instance.

  At the first grid point the body loads `x`'s buffer whole, stores the tangent rows (the first payload of `x`) over
  the whole scratch, then loads the matrix block and the scratch — which now reads the tangent rows just stored — and
  stores the result block (the second payload of the matrix block and the tangent rows) over the whole result buffer.
  At every later point it skips the first store: the scratch is read as the earlier points left it.
  Either way `x`'s and the matrix's buffers end as they were handed in.
-/
import proofs.«139651_g60404420051467_cont_9to1_m_1209_17_alg».proof.Proof.Gen.KernelIdeal.Skeleton
import proofs.«139651_g60404420051467_cont_9to1_m_1209_17_alg».proof.Proof.Gen.KernelIdeal.Frame
import Idealize.ShloMosaic.Lib.Pipeline.Value
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The body's one branch condition, from the grid coordinate: the point is the first. -/
abbrev firstPoint (i : grid0.Coords) : Prop :=
  (Scalar.cmpi .ne (Scalar.extui (Scalar.cmpi .eq (BitVec.ofNat 32 (i 0).val) 0#32)) 0#32) = 1#1

/-- It holds at point 0 and nowhere else on the grid. -/
theorem firstPoint_iff : ∀ t : Fin cfg0.N, firstPoint (grid0.coords t) ↔ t.val = 0 :=
  (by decide +kernel : ∀ t : Fin grid0.N, firstPoint (grid0.coords t) ↔ t.val = 0)

/-- The whole-buffer rectangle's offsets are zeros. -/
theorem hz : (![0, 0] : Fin 2 → Nat) = fun _ => 0 := funext fun a => by fin_cases a <;> rfl

/-- One store through the whole-shape rectangle leaves its payload, whatever the buffer held. -/
theorem read_store_whole {κ : Kind} {sp : Space} {n0 n1 : Nat} {e : EltTy} (v : View sig κ sp ⟨2, ![n0, n1]⟩ e)
    (f : v.ty.Contents (Elt F))
    (inb : ∀ a, (![0, 0] : Fin 2 → Nat) a + (⟨2, ![n0, n1]⟩ : Shape).size a ≤ (⟨2, ![n0, n1]⟩ : Shape).size a)
    (w : (⟨2, ![n0, n1]⟩ : Shape).Idx → Elt F e) :
    v.read (Elt F) (v.writes (Elt F) f [⟨Rect.unit ![0, 0] (⟨2, ![n0, n1]⟩ : Shape).size inb, w⟩]) = w := by
  rw [View.read_writes_eq_canon _ _ _ (fun y => ⟨_, List.mem_singleton_self _, View.mem_set_unit_zero hz inb y⟩),
    View.canon_unit_zero hz]

/-- A load through the whole-shape rectangle reads the contents. -/
theorem load_whole {κ : Kind} {sp : Space} {n0 n1 : Nat} {e : EltTy} (v : View sig κ sp ⟨2, ![n0, n1]⟩ e)
    (f : v.ty.Contents (Elt F))
    (inb : ∀ a, (![0, 0] : Fin 2 → Nat) a + (⟨2, ![n0, n1]⟩ : Shape).size a ≤ (⟨2, ![n0, n1]⟩ : Shape).size a) :
    v.readAt (Elt F) (Rect.unit ![0, 0] (⟨2, ![n0, n1]⟩ : Shape).size inb).toLoadRect f = v.read (Elt F) f := by
  rw [View.readAt_eq_ld, View.ld_unit_zero hz]

/-- A load through it of what one store through it left reads the payload. -/
theorem load_after_store_whole {κ : Kind} {sp : Space} {n0 n1 : Nat} {e : EltTy} (v : View sig κ sp ⟨2, ![n0, n1]⟩ e)
    (inb : ∀ a, (![0, 0] : Fin 2 → Nat) a + (⟨2, ![n0, n1]⟩ : Shape).size a ≤ (⟨2, ![n0, n1]⟩ : Shape).size a)
    (w : (⟨2, ![n0, n1]⟩ : Shape).Idx → Elt F e) :
    v.readCov [⟨Rect.unit ![0, 0] (⟨2, ![n0, n1]⟩ : Shape).size inb, w⟩] (Rect.unit ![0, 0] (⟨2, ![n0, n1]⟩ : Shape).size inb).toLoadRect = w :=
  View.readCov_unit_zero v hz inb w

/-- THE BODY AT THE FIRST POINT: the scratch ends holding the first payload of `x`'s buffer (the tangent rows), the
    result buffer the second payload of the matrix block and those rows, the two input buffers as they were. -/
theorem body_first (c : Dev nD) (i : grid0.Coords)
    (arg1 : Memref sig .tc .vmem S10000x128 .f32) (harg1 : arg1.IsWhole) (arg2 : Memref sig .tc .vmem S256x10000 .f32) (harg2 : arg2.IsWhole)
    (arg3 : Memref sig .tc .vmem S256x128 .f32) (harg3 : arg3.IsWhole) (arg4 : Memref sig .tc .vmem S10000x128 .bf16) (harg4 : arg4.IsWhole)
    (hc : firstPoint i)
    (X0 : Vec F S10000x128 .f32) (X1 : Vec F S256x10000 .f32) (X2 : Vec F S256x128 .f32) (S : Vec F S10000x128 .bf16)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare S
          ∗ (iprop(owns (c : Thread nD τ) arg1 fullShare X0 ∗ owns (c : Thread nD τ) arg2 fullShare X1
              ∗ owns (c : Thread nD τ) arg3 fullShare (k0_pay3 X1 (k0_pay2 X0)) ∗ owns (c : Thread nD τ) arg4 fullShare (k0_pay2 X0)) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_store_whole, load_after_store_whole, load_whole, load_whole, hf0, hf1]
  · iexists _; isplitr
    swap; · iexact H3
    ipureintro
    sl_unfold_words
    rw [read_store_whole, load_whole, hf0]

/-- THE BODY AT A LATER POINT: the scratch is only read; the result buffer ends holding the second payload of the
    matrix block and the scratch's contents, the other three buffers as they were. -/
theorem body_later (c : Dev nD) (i : grid0.Coords)
    (arg1 : Memref sig .tc .vmem S10000x128 .f32) (harg1 : arg1.IsWhole) (arg2 : Memref sig .tc .vmem S256x10000 .f32) (harg2 : arg2.IsWhole)
    (arg3 : Memref sig .tc .vmem S256x128 .f32) (harg3 : arg3.IsWhole) (arg4 : Memref sig .tc .vmem S10000x128 .bf16) (harg4 : arg4.IsWhole)
    (hc : ¬firstPoint i)
    (X0 : Vec F S10000x128 .f32) (X1 : Vec F S256x10000 .f32) (X2 : Vec F S256x128 .f32) (S : Vec F S10000x128 .bf16)
    (E : Set ℕ) (K : PUnit → sProp 𝕄) :
    iprop(owns (c : Thread nD τ) arg1 fullShare X0 ∗ owns (c : Thread nD τ) arg2 fullShare X1 ∗ owns (c : Thread nD τ) arg3 fullShare X2
          ∗ owns (c : Thread nD τ) arg4 fullShare S
          ∗ (iprop(owns (c : Thread nD τ) arg1 fullShare X0 ∗ owns (c : Thread nD τ) arg2 fullShare X1
              ∗ owns (c : Thread nD τ) arg3 fullShare (k0_pay3 X1 S) ∗ owns (c : Thread nD τ) arg4 fullShare S) -∗ K ⟨⟩))
      ⊢ wp frame (wpE (defs₀ (F := F)) Variants.none c none) E (cc0__hyp_agg_body i arg1 harg1 arg2 harg2 arg3 harg3 arg4 harg4) K := by
  simp only [cc0__hyp_agg_body_eq_skeleton]; unfold cc0__hyp_agg_body_skel
  unfold owns
  iintro ⟨⟨%f0, %hf0, H0⟩, ⟨%f1, %hf1, H1⟩, ⟨%f2, %hf2, H2⟩, ⟨%f3, %hf3, H3⟩, Hk⟩
  obtain rfl := harg1.eq_unread hf0; obtain rfl := harg2.eq_unread hf1; obtain rfl := harg3.eq_unread hf2; obtain rfl := harg4.eq_unread hf3
  sl_exec (disch := exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr
    swap; · iexact H2
    ipureintro
    sl_unfold_words
    rw [read_store_whole, load_whole, load_whole, hf1, hf3]
  · iexists _; isplitr; · ipureintro; exact hf3
    iexact H3

end Cert.KernelIdeal.Body

end
-- ==== Proof.Data.lean ====
/-
  The pipeline's proof data and its run.

  On each core: `x`'s window holds the whole array at every point; the matrix window holds rows `256·t ‥` of the
  matrix, the last block only sixteen of them (the rows past the array's end hold words nothing names); the scratch
  holds, from the first point on, the tangent rows computed from `x`; and the result window is left holding the
  result block of the matrix block and the tangent rows, of which the write-back moves the rows inside the array.
  The one fact about the arithmetic that the run needs is ROW LOCALITY: on the rows a write-back moves, the result
  block does not depend on what the matrix buffer holds past the array's end. It is a hypothesis here and is proved
  where the arithmetic is read (over the extended reals).
-/
import proofs.«139651_g60404420051467_cont_9to1_m_1209_17_alg».proof.Proof.Body

set_option maxRecDepth 16384

noncomputable section

namespace Cert.KernelIdeal.Data

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers the body is called with -/

/-- Each window's current staging buffer at point `t`, and that it is a whole buffer. -/
abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
/-- The scratch: a whole scoped buffer of the kernel's own. -/
abbrev scM : Memref sig .tc .vmem S10000x128 .bf16 := Memref.whole cc0_scratch0

/-- The region's invariant with the scratch as a buffer owned at some contents. -/
theorem PhiA_eq (c : Dev nD) :
    (Pipeline.ΦA spec0 c : sProp 𝕄) = iprop(iprop((∃ d, owns (c : Thread nD τ) scM fullShare d)) ∗ (∃ r, prngReg c r)) := by
  unfold Pipeline.ΦA; rw [scopedRest0_eq]; simp only [scM, owns_whole]; try rfl

/-! ## What the buffers hold -/

/-- The first grid point. -/
abbrev t₀ : Fin cfg0.N := ⟨0, lt_of_lt_of_eq (by omega : 0 < 40) N_0.symm⟩

/-- The tangent rows: the first payload of `x`'s block (the whole array) at the first point. -/
def xt (c : Dev nD) : Vec F S10000x128 .bf16 := k0_pay2 (iblk m c 0 t₀)

/-- The matrix block at point `t`, filled out past the array's end with the zero word. -/
def ablk (c : Dev nD) (t : Fin cfg0.N) : Vec F S256x10000 .f32 :=
  win0_1.fill (grid0.coords t) (fun _ => Scalar.ofBits .f32 0#32) (iblk m c 1 t)

/-- The result block at point `t`: the second payload of that matrix block and the tangent rows. -/
def oblk (c : Dev nD) (t : Fin cfg0.N) : Vec F S256x128 .f32 := k0_pay3 (ablk m c t) (xt m c)

/-- ROW LOCALITY: on the rows the result window's transfer moves, the result block does not depend on what the matrix
    buffer holds outside the rows the matrix window's transfer moves. -/
def RowLocal (F : FTy → Type) [FloatOps F] : Prop :=
  ∀ (t : Fin cfg0.N) (d d' : Vec F S256x10000 .f32) (B : (win0_1.xblock (grid0.coords t)).Idx → Elt F .f32) (S : Vec F S10000x128 .bf16),
    win0_2.cut (grid0.coords t) (k0_pay3 (win0_1.fill (grid0.coords t) d B) S)
      = win0_2.cut (grid0.coords t) (k0_pay3 (win0_1.fill (grid0.coords t) d' B) S)

/-- The invariant before position `n`: before the first point the scratch holds anything; afterwards the tangent rows. -/
def Phi (c : Dev nD) : ℕ → sProp 𝕄
  | 0 => Pipeline.ΦA spec0 c
  | _ + 1 => iprop(iprop(owns (c : Thread nD τ) scM fullShare (xt m c)) ∗ (∃ r, prngReg c r))

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => ablk m c t
    | ⟨2, _⟩ => oblk m c t
  Φ t := Phi m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = ablk m c t := by dsimp only [dats]
theorem after_2 (c : Dev nD) (t : Fin cfg0.N) : (dats m 0 c).after 2 t = oblk m c t := by dsimp only [dats]

theorem Phi_castSucc (c : Dev nD) (t : Fin cfg0.N) : (dats m 0 c).Φ t.castSucc = Phi m c t.val := by
  dsimp only [dats]; simp only [Fin.coe_castSucc]

theorem Phi_succ (c : Dev nD) (t : Fin cfg0.N) :
    (dats m 0 c).Φ t.succ = iprop(iprop(owns (c : Thread nD τ) scM fullShare (xt m c)) ∗ (∃ r, prngReg c r)) := rfl

/-! ## What the body finds -/

/-- `x`'s buffer holds the whole array at every point (fetched at the first, kept afterwards). -/
theorem before_0 (c : Dev nD) (t : Fin cfg0.N) (d) : (dats m 0 c).before 0 t d = iblk m c 0 t :=
  before0_0_of m (dats m 0 c) (A_eq m c 0) (after_0 m c) t d

/-- The matrix buffer, fetched at every point, holds its block on the rows inside the array and `d` past them. -/
theorem before_1 (c : Dev nD) (t : Fin cfg0.N) (d) :
    (dats m 0 c).before 1 t d = win0_1.fill (grid0.coords t) d (iblk m c 1 t) := by
  rw [Dat.before_fetched _ 1 t (fetch0_1 t)]; unfold Dat.fetched Dat.blockOf iblk; rw [A_eq]

/-- The result buffer, written back at every point, is fresh at every point. -/
theorem before_2 (c : Dev nD) (t : Fin cfg0.N) (d) : (dats m 0 c).before 2 t d = d :=
  Dat.before_out_reset _ 2 rfl t (by
    by_cases ht : t.val = 0
    · exact .inl ht
    · exact .inr ⟨ht, flush0_2 _⟩) d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

/-- and what it returns: `x`'s buffer as stated; the two windows whose last blocks overhang, on the rows their
    transfers move. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ (∃ d, owns (c : Thread nD τ) (ms1 t) fullShare (win0_1.fill (grid0.coords t) d (win0_1.cut (grid0.coords t) ((dats m 0 c).after 1 t))))
    ∗ (∃ d, owns (c : Thread nD τ) (ms2 t) fullShare (win0_2.fill (grid0.coords t) d (win0_2.cut (grid0.coords t) ((dats m 0 c).after 2 t)))))

/-- The body at any point. At the first point the invariant hands over the scratch at anything and takes it back at
    the tangent rows; at a later point it hands it over and takes it back at the tangent rows. The matrix buffer is
    handed back as found, which on the moved rows is the matrix block; the result buffer holds the result block of
    what the matrix buffer held, which on the moved rows is the stated one by row locality. -/
theorem sound_body (hloc : RowLocal F) (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_succ, Phi_castSucc,
    after_0, after_1, after_2]
  have hcut1 : ∀ d, win0_1.fill (grid0.coords t) d (win0_1.cut (grid0.coords t) (ablk m c t)) = win0_1.fill (grid0.coords t) d (iblk m c 1 t) := fun d => by
    unfold ablk; rw [win0_1.cut_fill]
  by_cases hz : t.val = 0
  · obtain rfl : t = t₀ := Fin.ext hz
    rw [show Phi m c (t₀ : Fin cfg0.N).val = Pipeline.ΦA spec0 c from rfl, PhiA_eq]
    iintro ⟨⟨⟨%S, HS⟩, Hg⟩, Ho, ⟨%d0, H0⟩, ⟨%d1, H1⟩, ⟨%d2, H2⟩⟩
    rw [before_0 m c t₀ d0, before_1 m c t₀ d1, before_2 m c t₀ d2]
    iapply (body_first (F := F) c (grid0.coords t₀) (ms0 t₀) (hs0 t₀) (ms1 t₀) (hs1 t₀) (ms2 t₀) (hs2 t₀) scM (Memref.isWhole_whole _)
      ((firstPoint_iff t₀).mpr rfl) (iblk m c 0 t₀) (win0_1.fill (grid0.coords t₀) d1 (iblk m c 1 t₀)) d2 S Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexact HS
      iexact Hg
    isplitl [Ho]; · iexact Ho
    isplitl [H0]; · iexact H0
    isplitl [H1]
    · iexists d1; rw [hcut1]; iexact H1
    · iexists (k0_pay3 (win0_1.fill (grid0.coords t₀) d1 (iblk m c 1 t₀)) (k0_pay2 (iblk m c 0 t₀)))
      rw [win0_2.fill_congr_cut (grid0.coords t₀) (X := k0_pay3 (win0_1.fill (grid0.coords t₀) d1 (iblk m c 1 t₀)) (k0_pay2 (iblk m c 0 t₀)))
        (Y := oblk m c t₀) (by unfold oblk ablk xt; exact hloc t₀ d1 _ (iblk m c 1 t₀) (k0_pay2 (iblk m c 0 t₀)))]
      iexact H2
  · obtain ⟨n, hn⟩ : ∃ n, t.val = n + 1 := ⟨t.val - 1, by omega⟩
    rw [show Phi m c t.val = iprop(iprop(owns (c : Thread nD τ) scM fullShare (xt m c)) ∗ (∃ r, prngReg c r)) from by rw [hn]; rfl]
    iintro ⟨⟨HS, Hg⟩, Ho, ⟨%d0, H0⟩, ⟨%d1, H1⟩, ⟨%d2, H2⟩⟩
    rw [before_0 m c t d0, before_1 m c t d1, before_2 m c t d2]
    iapply (body_later (F := F) c (grid0.coords t) (ms0 t) (hs0 t) (ms1 t) (hs1 t) (ms2 t) (hs2 t) scM (Memref.isWhole_whole _)
      (fun h => hz ((firstPoint_iff t).mp h)) (iblk m c 0 t) (win0_1.fill (grid0.coords t) d1 (iblk m c 1 t)) d2 (xt m c) Set.univ _)
    isplitl [H0]; · iexact H0
    isplitl [H1]; · iexact H1
    isplitl [H2]; · iexact H2
    isplitl [HS]; · iexact HS
    iintro ⟨H0, H1, H2, HS⟩
    isplitl [HS Hg]
    · isplitl [HS]
      · iexact HS
      iexact Hg
    isplitl [Ho]; · iexact Ho
    isplitl [H0]; · iexact H0
    isplitl [H1]
    · iexists d1; rw [hcut1]; iexact H1
    · iexists (k0_pay3 (win0_1.fill (grid0.coords t) d1 (iblk m c 1 t)) (xt m c))
      rw [win0_2.fill_congr_cut (grid0.coords t) (X := k0_pay3 (win0_1.fill (grid0.coords t) d1 (iblk m c 1 t)) (xt m c))
        (Y := oblk m c t) (by unfold oblk ablk; exact hloc t d1 _ (iblk m c 1 t) (xt m c))]
      iexact H2

/-- The library's body obligation, at every point. -/
theorem body_obligation (hloc : RowLocal F) (c : Dev nD) :
    BodyObligationLoose (dats (F := F) m 0 c) (defs₀ (F := F)) Variants.none () Set.univ := fun t => by
  rw [bigSep_W0, bigSep_W0]
  exact sound_body m hloc c t

/-- What the launch hands the region is the invariant before the first point. -/
theorem hin (c : Dev nD) : Pipeline.ΦA spec0 c ⊢ (dats m 0 c).Φ 0 := Idealize.SL.BI.Entails.refl _

/-- After the last point the invariant gives the region's back: the scratch's contents are forgotten. -/
theorem hout (c : Dev nD) : (dats m 0 c).Φ (Fin.last cfg0.N) ⊢ Pipeline.ΦA spec0 c := by
  rw [show (dats m 0 c).Φ (Fin.last cfg0.N) = iprop(iprop(owns (c : Thread nD τ) scM fullShare (xt m c)) ∗ (∃ r, prngReg c r)) from rfl,
    PhiA_eq]
  iintro ⟨HS, Hg⟩
  isplitl [HS]
  · iexists _; iexact HS
  iexact Hg

/-! ## The run -/

set_option backward.isDefEq.respectTransparency.types false in
/-- At the compiled mesh, for any values, from any memory with zero counters: every weakly fair execution of @main
    terminates, and every final state has each array of the pipeline at what the proof data computes — the inputs
    as they were, the result the blocks written back in point order — and every other unscoped buffer as it was. -/
theorem run_main (hloc : RowLocal F) :
    θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => body_obligation m hloc c) (hshare := fun c => (dats m 0 c).share_full fun _ => rfl)
    (howed := fun _ _ => rfl) (V := V m) (hmain := hmain m Variants.none) (hA := A_eq m) (hin := hin m) (hout := hout m)

/-- The frame claim's post from that run. -/
theorem frame (hloc : RowLocal F) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ hloc)

end Cert.KernelIdeal.Data

end
-- ==== Proof.Spec.lean ====
/-
  The two arrangements of the hyperbolic aggregation, as functions of the argument arrays over the extended reals,
  and the law that joins them.

  Both programs map every row of `x` into the tangent space at the origin (the logarithmic map: the row scaled by
  `artanh ‖row‖ / ‖row‖`, the norm clipped below at a tiny `ε` and the `artanh` argument clipped into `(-1, 1)`),
  aggregate the tangent rows by the dense matrix `adj`, and map each aggregated row `u` back onto the ball (the
  exponential map, `tanh ‖u‖ · u / ‖u‖`) and inside the radius `μ = 0.996`.
  The kernel's arrangement scales `u` ONCE, by `min (tanh ‖u‖) μ / ‖u‖`; the reference's first forms
  `y = tanh ‖u‖ · u / ‖u‖`, measures `‖y‖` again and rescales `y` by `μ / ‖y‖` where `‖y‖ > μ`.
  On finite inputs every intermediate is a real number and `‖y‖ = tanh ‖u‖ · ‖u‖ / max ‖u‖ ε`, which is `tanh ‖u‖`
  unless `‖u‖ < ε`, and then it is below `ε < μ`: the two arrangements agree, index by index.
-/
import Idealize.ShloMosaic.PureOps.Ideal
import Idealize.ShloMosaic.PureOps.Ideal.Laws
import Mathlib.Analysis.Complex.Trigonometric
import Mathlib.Analysis.Complex.ExponentialBounds
import Mathlib.Analysis.SpecialFunctions.Trigonometric.DerivHyp

noncomputable section

namespace Cert.HypAggSpec

open Idealize.ShloMosaic

/-! ## The literals, as the extended reals their words denote -/

/-- The norm's floor `ε`, the word of `1e-15`. -/
abbrev eps : EReal := Ideal.ofBits .f32 0x26901D7D#32
/-- The `artanh` argument's lower clip, the word of `-1 + 1e-7`. -/
abbrev lo : EReal := Ideal.ofBits .f32 0xBF7FFFFE#32
/-- The `artanh` argument's upper clip, the word of `1 - 1e-7`. -/
abbrev hi : EReal := Ideal.ofBits .f32 0x3F7FFFFE#32
/-- One half. -/
abbrev half : EReal := Ideal.ofBits .f32 0x3F000000#32
/-- The ball's radius less its margin, `μ`, the word of `0.996`. -/
abbrev mx : EReal := Ideal.ofBits .f32 0x3F7EF9DB#32
/-- One. -/
abbrev one : EReal := Ideal.ofBits .f32 0x3F800000#32
/-- Zero. -/
abbrev zero : EReal := Ideal.ofBits .f32 0x00000000#32

/-! ## What both arrangements share -/

/-- A row's Euclidean norm, clipped below at `ε`. -/
def nrm {n : Nat} (v : Fin n → EReal) : EReal := max (Ideal.sqrt (∑ k, v k * v k)) eps

/-- The `artanh` argument: the norm clipped into `[lo, hi]`. -/
def clipT (n : EReal) : EReal := min hi (max lo n)

/-! ## The kernel's arrangement -/

/-- `artanh` of the clipped norm as the kernel spells it: `½ · (log1p t − log1p (0 − t))`. -/
def artK (n : EReal) : EReal := half * (Ideal.log1p (clipT n) - Ideal.log1p (zero - clipT n))

/-- The tangent row as the kernel spells it: `x · (artanh / norm)`. -/
def xtK (x : Fin 10000 → Fin 128 → EReal) (r : Fin 10000) (j : Fin 128) : EReal :=
  x r j * Ideal.div (artK (nrm (x r))) (nrm (x r))

/-- One aggregated row: the row `a` of the matrix against the tangent rows `s`. -/
def uRow (a : Fin 10000 → EReal) (s : Fin 10000 → Fin 128 → EReal) (j : Fin 128) : EReal := ∑ k, a k * s k j

/-- An aggregated row `u` scaled once, by `min (tanh norm) μ / norm`. -/
def outRow (u : Fin 128 → EReal) (j : Fin 128) : EReal := u j * Ideal.div (min (Ideal.tanh (nrm u)) mx) (nrm u)

/-- The aggregated tangent rows, `adj · xt`. -/
def uK (x : Fin 10000 → Fin 128 → EReal) (adj : Fin 10000 → Fin 10000 → EReal) (i : Fin 10000) : Fin 128 → EReal :=
  uRow (adj i) (xtK x)

/-- The kernel's result: each aggregated row scaled once. -/
def specK (x : Fin 10000 → Fin 128 → EReal) (adj : Fin 10000 → Fin 10000 → EReal) (i : Fin 10000) (j : Fin 128) : EReal :=
  outRow (uK x adj i) j

/-! ## The reference's arrangement -/

/-- `artanh` of the clipped norm as the reference spells it: `½ · (log1p t − log1p (−t))`. -/
def artR (n : EReal) : EReal := half * (Ideal.log1p (clipT n) - Ideal.log1p (-(clipT n)))

/-- The tangent row as the reference spells it: `x / (1 · norm) · artanh (1 · norm)`. -/
def xtR (x : Fin 10000 → Fin 128 → EReal) (r : Fin 10000) (j : Fin 128) : EReal :=
  Ideal.div (x r j) (one * nrm (x r)) * artR (one * nrm (x r))

/-- The aggregated tangent rows. -/
def uR (x : Fin 10000 → Fin 128 → EReal) (adj : Fin 10000 → Fin 10000 → EReal) (i : Fin 10000) (j : Fin 128) : EReal :=
  ∑ k, adj i k * xtR x k j

/-- The exponential map at the origin: `tanh (1 · norm) · u / (1 · norm)`. -/
def yR (x : Fin 10000 → Fin 128 → EReal) (adj : Fin 10000 → Fin 10000 → EReal) (i : Fin 10000) (j : Fin 128) : EReal :=
  Ideal.div (Ideal.tanh (one * nrm (uR x adj i)) * uR x adj i j) (one * nrm (uR x adj i))

/-- The reference's result: `y` projected into the ball of radius `μ` where its (clipped) norm exceeds `μ`. -/
def specR (x : Fin 10000 → Fin 128 → EReal) (adj : Fin 10000 → Fin 10000 → EReal) (i : Fin 10000) (j : Fin 128) : EReal :=
  if mx < nrm (yR x adj i) then Ideal.div (yR x adj i j) (nrm (yR x adj i)) * mx else yR x adj i j

/-! ## The literals' values

Each literal word denotes a real number; the reals are named here and the few order facts the law needs are
computed once. -/

/-- The real ε = 9444733 · 2⁻⁷³ (about 1e-15). -/
def epsR : ℝ := 9444733 * (2 : ℝ) ^ (-73 : ℤ)
/-- The real lower clip -(1 - 2⁻²³). -/
def loR : ℝ := -(16777214 * (2 : ℝ) ^ (-24 : ℤ))
/-- The real upper clip 1 - 2⁻²³. -/
def hiR : ℝ := 16777214 * (2 : ℝ) ^ (-24 : ℤ)
/-- The real one half. -/
def halfR : ℝ := 1 / 2
/-- The real radius μ = 16710107 · 2⁻²⁴ (about 0.996). -/
def mxR : ℝ := 16710107 * (2 : ℝ) ^ (-24 : ℤ)

theorem one_eq : one = 1 := by
  simp [Ideal.ofBits, Ideal.ieee, -EReal.coe_mul]; norm_num

theorem zero_eq : zero = 0 := by
  simp [Ideal.ofBits, Ideal.ieee]

theorem eps_eq : eps = (epsR : EReal) := by
  simp [Ideal.ofBits, Ideal.ieee, epsR, -EReal.coe_mul]

theorem lo_eq : lo = (loR : EReal) := by
  simp [Ideal.ofBits, Ideal.ieee, loR, -EReal.coe_mul]

theorem hi_eq : hi = (hiR : EReal) := by
  simp [Ideal.ofBits, Ideal.ieee, hiR, -EReal.coe_mul]

theorem half_eq : half = (halfR : EReal) := by
  simp [Ideal.ofBits, Ideal.ieee, halfR, -EReal.coe_mul]; norm_num

theorem mx_eq : mx = (mxR : EReal) := by
  simp [Ideal.ofBits, Ideal.ieee, mxR, -EReal.coe_mul]

theorem epsR_pos : 0 < epsR := by unfold epsR; positivity
theorem epsR_lt_mxR : epsR < mxR := by unfold epsR mxR; norm_num
theorem epsR_le_half : epsR ≤ 1 / 2 := by unfold epsR; norm_num
theorem mxR_eq : mxR = 16710107 / 16777216 := by unfold mxR; norm_num
theorem neg_one_lt_loR : -1 < loR := by unfold loR; norm_num
theorem loR_le_hiR : loR ≤ hiR := by unfold loR hiR; norm_num
theorem hiR_lt_one : hiR < 1 := by unfold hiR; norm_num

/-! ## Coercion of the reals into the extended reals commutes with what the definitions use -/

theorem coe_max (a b : ℝ) : ((max a b : ℝ) : EReal) = max (a : EReal) (b : EReal) :=
  EReal.coe_strictMono.monotone.map_max

theorem coe_min (a b : ℝ) : ((min a b : ℝ) : EReal) = min (a : EReal) (b : EReal) :=
  EReal.coe_strictMono.monotone.map_min

/-- A finite sum of coerced reals is the coerced real sum. -/
theorem coe_sum {ι : Type} (s : Finset ι) (f : ι → ℝ) :
    (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-! ## Two facts about tanh -/

/-- tanh is positive on the positive reals: sinh is, and cosh is everywhere. -/
theorem tanh_pos {t : ℝ} (ht : 0 < t) : 0 < Real.tanh t := by
  rw [Real.tanh_eq_sinh_div_cosh]
  exact div_pos (Real.sinh_pos_iff.mpr ht) (Real.cosh_pos t)

/-- tanh ε ≤ μ: with a = e^ε ≤ e < 2.72 and b = e^(-ε) ≥ 1 - ε ≥ ½,
    (a - b) / (a + b) ≤ μ reads (1 - μ) a ≤ (1 + μ) b. -/
theorem tanh_eps_le : Real.tanh epsR ≤ mxR := by
  rw [Real.tanh_eq]
  have ha : 0 < Real.exp epsR := Real.exp_pos _
  have hb : 0 < Real.exp (-epsR) := Real.exp_pos _
  have ha1 : Real.exp epsR ≤ 2.7182818286 :=
    (Real.exp_le_exp.mpr (epsR_le_half.trans (by norm_num))).trans Real.exp_one_lt_d9.le
  have hb1 : 1 / 2 ≤ Real.exp (-epsR) := by
    have := Real.add_one_le_exp (-epsR)
    have h2 := epsR_le_half
    linarith
  rw [div_le_iff₀ (add_pos ha hb), mxR_eq]
  linarith

/-! ## The shared pieces on real arguments -/

/-- The clipped norm of a real row. -/
def nrmR {n : Nat} (v : Fin n → ℝ) : ℝ := max (Real.sqrt (∑ k, v k * v k)) epsR

theorem nrmR_pos {n : Nat} (v : Fin n → ℝ) : 0 < nrmR v :=
  lt_of_lt_of_le epsR_pos (le_max_right _ _)

/-- The norm of a row of reals is the real clipped norm. -/
theorem nrm_coe {n : Nat} {v : Fin n → EReal} {w : Fin n → ℝ} (h : ∀ k, v k = (w k : EReal)) :
    nrm v = (nrmR w : EReal) := by
  unfold nrm nrmR
  have hs : (∑ k, v k * v k) = ((∑ k, w k * w k : ℝ) : EReal) := by
    rw [← coe_sum]
    exact Finset.sum_congr rfl fun k _ => by rw [h k, EReal.coe_mul]
  rw [hs, Ideal.sqrt_coe, if_neg (not_lt.mpr (Finset.sum_nonneg fun k _ => mul_self_nonneg _)), eps_eq, coe_max]

/-- The real clip into [lo, hi]. -/
def clipR (n : ℝ) : ℝ := min hiR (max loR n)

theorem clipT_coe (n : ℝ) : clipT (n : EReal) = (clipR n : EReal) := by
  unfold clipT clipR
  rw [hi_eq, lo_eq, ← coe_max, ← coe_min]

theorem neg_one_lt_clipR (n : ℝ) : -1 < clipR n :=
  lt_of_lt_of_le neg_one_lt_loR (le_min loR_le_hiR (le_max_left _ _))

theorem clipR_lt_one (n : ℝ) : clipR n < 1 :=
  lt_of_le_of_lt (min_le_left _ _) hiR_lt_one

/-- log1p of a real above -1 is the real logarithm of 1 + t. -/
theorem log1p_coe {t : ℝ} (h : 0 < 1 + t) : Ideal.log1p (t : EReal) = (Real.log (1 + t) : EReal) := by
  unfold Ideal.log1p
  rw [show (1 : EReal) + (t : EReal) = ((1 + t : ℝ) : EReal) by rw [EReal.coe_add, EReal.coe_one],
    Ideal.log_coe, if_neg (not_le.mpr h)]

/-- The real artanh of the clipped norm, ½ (log (1 + t) − log (1 − t)). -/
def artanhR (n : ℝ) : ℝ := halfR * (Real.log (1 + clipR n) - Real.log (1 + -clipR n))

theorem artK_coe (n : ℝ) : artK (n : EReal) = (artanhR n : EReal) := by
  unfold artK artanhR
  have h1 : 0 < 1 + clipR n := by have := neg_one_lt_clipR n; linarith
  have h2 : 0 < 1 + -clipR n := by have := clipR_lt_one n; linarith
  rw [clipT_coe, zero_eq, zero_sub, ← EReal.coe_neg, log1p_coe h1, log1p_coe h2, half_eq, ← EReal.coe_sub,
    ← EReal.coe_mul]

theorem artR_coe (n : ℝ) : artR (n : EReal) = (artanhR n : EReal) := by
  unfold artR artanhR
  have h1 : 0 < 1 + clipR n := by have := neg_one_lt_clipR n; linarith
  have h2 : 0 < 1 + -clipR n := by have := clipR_lt_one n; linarith
  rw [clipT_coe, ← EReal.coe_neg, log1p_coe h1, log1p_coe h2, half_eq, ← EReal.coe_sub, ← EReal.coe_mul]

/-! ## The tangent rows and their aggregation agree -/

/-- The real tangent row: x · (artanh n / n) with n the clipped norm of the row. -/
def xtReal (xr : Fin 10000 → Fin 128 → ℝ) (r : Fin 10000) (j : Fin 128) : ℝ :=
  xr r j * (artanhR (nrmR (xr r)) / nrmR (xr r))

theorem xtK_coe {x : Fin 10000 → Fin 128 → EReal} {xr : Fin 10000 → Fin 128 → ℝ}
    (hx : ∀ r k, x r k = (xr r k : EReal)) (r : Fin 10000) (j : Fin 128) :
    xtK x r j = (xtReal xr r j : EReal) := by
  unfold xtK xtReal
  rw [nrm_coe (hx r), artK_coe, Ideal.div_coe (nrmR_pos _).ne', hx r j, ← EReal.coe_mul, ← EReal.coe_mul]
  exact congrArg _ (by ring)

theorem xtR_coe {x : Fin 10000 → Fin 128 → EReal} {xr : Fin 10000 → Fin 128 → ℝ}
    (hx : ∀ r k, x r k = (xr r k : EReal)) (r : Fin 10000) (j : Fin 128) :
    xtR x r j = (xtReal xr r j : EReal) := by
  unfold xtR xtReal
  rw [one_eq, one_mul, nrm_coe (hx r), artR_coe, Ideal.div_coe (nrmR_pos _).ne', hx r j, ← EReal.coe_mul,
    ← EReal.coe_mul]
  exact congrArg _ (by ring)

/-- The real aggregated row. -/
def uReal (xr : Fin 10000 → Fin 128 → ℝ) (ar : Fin 10000 → Fin 10000 → ℝ) (i : Fin 10000) (j : Fin 128) : ℝ :=
  ∑ k, ar i k * xtReal xr k j

theorem uK_coe {x : Fin 10000 → Fin 128 → EReal} {xr : Fin 10000 → Fin 128 → ℝ}
    {adj : Fin 10000 → Fin 10000 → EReal} {ar : Fin 10000 → Fin 10000 → ℝ}
    (hx : ∀ r k, x r k = (xr r k : EReal)) (ha : ∀ i k, adj i k = (ar i k : EReal))
    (i : Fin 10000) (j : Fin 128) : uK x adj i j = (uReal xr ar i j : EReal) := by
  unfold uK uRow uReal
  rw [← coe_sum]
  exact Finset.sum_congr rfl fun k _ => by rw [ha i k, xtK_coe hx, EReal.coe_mul]

theorem uR_coe {x : Fin 10000 → Fin 128 → EReal} {xr : Fin 10000 → Fin 128 → ℝ}
    {adj : Fin 10000 → Fin 10000 → EReal} {ar : Fin 10000 → Fin 10000 → ℝ}
    (hx : ∀ r k, x r k = (xr r k : EReal)) (ha : ∀ i k, adj i k = (ar i k : EReal))
    (i : Fin 10000) (j : Fin 128) : uR x adj i j = (uReal xr ar i j : EReal) := by
  unfold uR uReal
  rw [← coe_sum]
  exact Finset.sum_congr rfl fun k _ => by rw [ha i k, xtR_coe hx, EReal.coe_mul]

/-! ## The norm of a scaled row, and the two cases over the reals -/

/-- A nonnegative factor comes out of the root of the sum of squares. -/
theorem sqrt_sum_scaled {m : Nat} (c : ℝ) (hc : 0 ≤ c) (u : Fin m → ℝ) :
    Real.sqrt (∑ k, (c * u k) * (c * u k)) = c * Real.sqrt (∑ k, u k * u k) := by
  have h : ∑ k, (c * u k) * (c * u k) = c * c * ∑ k, u k * u k := by
    rw [Finset.mul_sum]
    exact Finset.sum_congr rfl fun k _ => by ring
  rw [h, Real.sqrt_mul (mul_self_nonneg c), Real.sqrt_mul_self hc]

/-- The clipped norm of a row scaled by a nonnegative factor. -/
theorem nrmR_scaled {m : Nat} (c : ℝ) (hc : 0 ≤ c) (u : Fin m → ℝ) :
    nrmR (fun k => c * u k) = max (c * Real.sqrt (∑ k, u k * u k)) epsR := by
  show max (Real.sqrt (∑ k, (c * u k) * (c * u k))) epsR = _
  rw [sqrt_sum_scaled c hc u]

/-- With s = ‖u‖ ≥ 0, n = max s ε, τ = tanh n and q = max (τ / n · s) ε the clipped norm of
    y = τ / n · u: where q exceeds μ we have s ≥ ε, so n = s, q = τ > μ, and rescaling y by
    μ / q is scaling u by μ / n. -/
theorem real_law_gt {s n τ q : ℝ} (uj : ℝ) (hn : n = max s epsR) (hτ : τ = Real.tanh n)
    (hq : q = max (τ / n * s) epsR) (hc : mxR < q) :
    uj * (min τ mxR / n) = τ / n * uj / q * mxR := by
  have hnpos : 0 < n := hn ▸ lt_of_lt_of_le epsR_pos (le_max_right _ _)
  have hτpos : 0 < τ := hτ ▸ tanh_pos hnpos
  rcases lt_or_ge s epsR with hlt | hge
  · exfalso
    have hn' : n = epsR := by rw [hn]; exact max_eq_right hlt.le
    have hτle : τ ≤ mxR := by rw [hτ, hn']; exact tanh_eps_le
    have h1 : τ / n * s ≤ mxR := by
      have h2 : τ / n * s ≤ τ / n * n :=
        mul_le_mul_of_nonneg_left (by rw [hn']; exact hlt.le) (div_nonneg hτpos.le hnpos.le)
      rw [div_mul_cancel₀ _ hnpos.ne'] at h2
      exact h2.trans hτle
    rw [hq] at hc
    exact absurd hc (not_lt.mpr (max_le h1 epsR_lt_mxR.le))
  · have hn' : n = s := by rw [hn]; exact max_eq_left hge
    have hspos : 0 < s := lt_of_lt_of_le epsR_pos hge
    have h1 : τ / n * s = τ := by rw [hn']; exact div_mul_cancel₀ _ hspos.ne'
    rw [h1] at hq
    have hτgt : mxR < τ := by
      rw [hq] at hc
      rcases lt_max_iff.mp hc with h | h
      · exact h
      · exact absurd h (not_lt.mpr epsR_lt_mxR.le)
    have hq' : q = τ := by rw [hq]; exact max_eq_left (epsR_lt_mxR.le.trans hτgt.le)
    have hτne : τ ≠ 0 := hτpos.ne'
    have hnne : n ≠ 0 := hnpos.ne'
    rw [min_eq_right hτgt.le, hq']
    field_simp

/-- Where q ≤ μ we have τ ≤ μ (if s ≥ ε then q = max τ ε ≥ τ; if s < ε then τ = tanh ε ≤ μ),
    so the single scaling is by τ / n. -/
theorem real_law_le {s n τ q : ℝ} (uj : ℝ) (hn : n = max s epsR) (hτ : τ = Real.tanh n)
    (hq : q = max (τ / n * s) epsR) (hc : ¬ mxR < q) :
    uj * (min τ mxR / n) = τ / n * uj := by
  have hτle : τ ≤ mxR := by
    rcases lt_or_ge s epsR with hlt | hge
    · have hn' : n = epsR := by rw [hn]; exact max_eq_right hlt.le
      rw [hτ, hn']; exact tanh_eps_le
    · have hn' : n = s := by rw [hn]; exact max_eq_left hge
      have hspos : 0 < s := lt_of_lt_of_le epsR_pos hge
      have h1 : τ / n * s = τ := by rw [hn']; exact div_mul_cancel₀ _ hspos.ne'
      rw [h1] at hq
      have h2 := not_lt.mp hc
      rw [hq] at h2
      exact (le_max_left _ _).trans h2
  rw [min_eq_left hτle]; ring

/-! ## One row -/

/-- On a row of reals, scaling once is the exponential map followed by the projection. -/
theorem row_law (U : Fin 128 → EReal) (u : Fin 128 → ℝ) (hU : ∀ k, U k = (u k : EReal)) (j : Fin 128) :
    outRow U j =
      if mx < nrm (fun k => Ideal.div (Ideal.tanh (one * nrm U) * U k) (one * nrm U)) then
        Ideal.div (Ideal.div (Ideal.tanh (one * nrm U) * U j) (one * nrm U))
          (nrm (fun k => Ideal.div (Ideal.tanh (one * nrm U) * U k) (one * nrm U))) * mx
      else Ideal.div (Ideal.tanh (one * nrm U) * U j) (one * nrm U) := by
  have hnpos : 0 < nrmR u := nrmR_pos u
  have hnU : nrm U = (nrmR u : EReal) := nrm_coe hU
  have hY : ∀ k, Ideal.div (Ideal.tanh (one * nrm U) * U k) (one * nrm U)
      = ((Real.tanh (nrmR u) / nrmR u * u k : ℝ) : EReal) := by
    intro k
    rw [one_eq, one_mul, hnU, Ideal.tanh_coe, hU k, ← EReal.coe_mul, Ideal.div_coe hnpos.ne', ← EReal.coe_mul]
    exact congrArg _ (by ring)
  have hnY : nrm (fun k => Ideal.div (Ideal.tanh (one * nrm U) * U k) (one * nrm U))
      = ((nrmR fun k => Real.tanh (nrmR u) / nrmR u * u k : ℝ) : EReal) := nrm_coe hY
  have hτpos : 0 < Real.tanh (nrmR u) := tanh_pos hnpos
  have hq : nrmR (fun k => Real.tanh (nrmR u) / nrmR u * u k)
      = max (Real.tanh (nrmR u) / nrmR u * Real.sqrt (∑ k, u k * u k)) epsR :=
    nrmR_scaled _ (div_nonneg hτpos.le hnpos.le) u
  have hqpos : 0 < nrmR (fun k => Real.tanh (nrmR u) / nrmR u * u k) := nrmR_pos _
  have hout : outRow U j = ((u j * (min (Real.tanh (nrmR u)) mxR / nrmR u) : ℝ) : EReal) := by
    unfold outRow
    rw [hnU, Ideal.tanh_coe, mx_eq, ← coe_min, Ideal.div_coe hnpos.ne', hU j, ← EReal.coe_mul, ← EReal.coe_mul]
    exact congrArg _ (by ring)
  rw [hout, hnY, hY j, mx_eq]
  by_cases hc : mxR < nrmR (fun k => Real.tanh (nrmR u) / nrmR u * u k)
  · rw [if_pos (EReal.coe_lt_coe_iff.mpr hc), Ideal.div_coe hqpos.ne', ← EReal.coe_mul, ← EReal.coe_mul]
    exact congrArg _ ((real_law_gt (s := Real.sqrt (∑ k, u k * u k)) (n := nrmR u) (τ := Real.tanh (nrmR u))
      (u j) rfl rfl hq hc).trans (by ring))
  · rw [if_neg (fun h => hc (EReal.coe_lt_coe_iff.mp h))]
    exact congrArg _ (real_law_le (s := Real.sqrt (∑ k, u k * u k)) (n := nrmR u) (τ := Real.tanh (nrmR u))
      (u j) rfl rfl hq hc)

/-! ## The law -/

/-- On finite inputs the two arrangements are one function. -/
theorem specK_eq_specR (x : Fin 10000 → Fin 128 → EReal) (adj : Fin 10000 → Fin 10000 → EReal)
    (hx : ∀ r k, ∃ a : ℝ, x r k = (a : EReal)) (hadj : ∀ i k, ∃ a : ℝ, adj i k = (a : EReal))
    (i : Fin 10000) (j : Fin 128) : specK x adj i j = specR x adj i j := by
  choose xr hxr using hx
  choose ar har using hadj
  have hK : uK x adj i = uR x adj i := funext fun k => (uK_coe hxr har i k).trans (uR_coe hxr har i k).symm
  unfold specK
  rw [hK]
  exact row_law (uR x adj i) (uReal xr ar i) (uR_coe hxr har i) j

end Cert.HypAggSpec

end
-- ==== Proof.PayValue.lean ====
/-
  The kernel body's two stored values, read at an index over the extended reals.
  The first-point store writes the tangent rows: entry `(r, j)` is `x r j` times `artanh ‖x r‖ / ‖x r‖`, the squared
  norm taken as a product with the all-ones matrix (every column of that product is the row's sum of squares).
  The per-point store writes a block of result rows: row `p` of the block depends on row `p` of the matrix block
  alone — the contraction over the ten thousand tangent rows, the row's norm, and one scaling.
-/
import proofs.«139651_g60404420051467_cont_9to1_m_1209_17_alg».proof.Proof.Gen.KernelIdeal.Skeleton
import proofs.«139651_g60404420051467_cont_9to1_m_1209_17_alg».proof.Proof.Spec
import Idealize.ShloMosaic.Lib.ValueIdx
import Idealize.ShloMosaic.PureOps.Ideal.Laws
import Idealize.ShloMosaic.Lib.IdealHost
import Idealize.ShloMosaic.Lib.Pipeline.Value

noncomputable section

namespace Cert.KernelIdeal.PayValue

open Cert.KernelIdeal Cert.KernelIdeal.Gen Cert.HypAggSpec Idealize.ShloMosaic Idealize.ShloMosaic.ValueIdx

/-! ## A rows-by-columns contraction into the zero accumulator, at an index -/

/-- A rows-by-columns contraction (`[1] × [0]`, no batch axis) into the zero accumulator, at `(r, j)`:
    `∑ k, lhs (r, k) * rhs (k, j)`. The left index at `(r, j)` and contraction position `k` is `(r, k)`, the right
    one `(k, j)`; the sum over the one-axis contraction index is re-indexed by its coordinate. -/
theorem matmul_plain_apply {m K n : Nat} {φ₁ φ₂ : FTy}
    (D : DotDims ⟨2, ![m, K]⟩ ⟨2, ![K, n]⟩ ⟨2, ![m, n]⟩)
    (hlc : D.lhsContracting = [1]) (hrc : D.rhsContracting = [0])
    (hln : D.lhsNonContracting = [0]) (hrn : D.rhsNonContracting = [1])
    (hlb : D.lhsBatch = []) (hrb : D.rhsBatch = [])
    (lhs : FVec Ideal ⟨2, ![m, K]⟩ φ₁) (rhs : FVec Ideal ⟨2, ![K, n]⟩ φ₂) (r : Fin m) (j : Fin n) :
    matmul (F := Ideal) D none lhs rhs (constant ⟨2, ![m, n]⟩ .f32 0x00000000#32) (ix2 r j)
      = ∑ k : Fin K, lhs (ix2 r k) * rhs (ix2 k j) := by
  obtain ⟨lc, rc, ln, rn, lb, rb, wf⟩ := D
  dsimp only at hlc hrc hln hrn hlb hrb
  subst hlc hrc hln hrn hlb hrb
  generalize hD : (DotDims.mk [1] [0] [0] [1] [] [] wf : DotDims ⟨2, ![m, K]⟩ ⟨2, ![K, n]⟩ ⟨2, ![m, n]⟩) = D
  have hlc : D.lhsContracting = [1] := by rw [← hD]
  have hrc : D.rhsContracting = [0] := by rw [← hD]
  have hr : D.contr.rank = 1 := by rw [← hD]; rfl
  have hs : D.contr.size ⟨0, by omega⟩ = K := by subst hD; rfl
  refine (Ideal.matmul_constant_zero_apply D none lhs rhs (ix2 r j)).trans ?_
  rw [← Equiv.sum_comp (contrEquiv1 D K hr hs).symm]
  refine Finset.sum_congr rfl fun k _ => ?_
  have hk := contrEquiv1_symm_val D K hr hs k
  -- the left operand's row coordinate is the result's
  have l0 : ∀ q, (D.lhsIdx (ix2 r j) q 0).val = r.val := fun q => by
    subst hD
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  -- the right operand's column coordinate is the result's
  have r1 : ∀ q, (D.rhsIdx (ix2 r j) q 1).val = j.val := fun q => by
    subst hD
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  -- the contracted coordinates are the contraction position
  have el : D.lhsIdx (ix2 r j) ((contrEquiv1 D K hr hs).symm k) = ix2 r k := funext fun a => Fin.ext (by
    match a with
    | ⟨0, _⟩ => exact l0 _
    | ⟨1, _⟩ => exact (D.lhsIdx_val_of_single hlc _ _).trans hk)
  have er : D.rhsIdx (ix2 r j) ((contrEquiv1 D K hr hs).symm k) = ix2 k j := funext fun a => Fin.ext (by
    match a with
    | ⟨0, _⟩ => exact (D.rhsIdx_val_of_single hrc _ _).trans hk
    | ⟨1, _⟩ => exact r1 _)
  rw [el, er]

/-! ## The kernel's three contractions -/

/-- The `10000 × 128` by `128 × 128` product at `(r, j)`. -/
theorem matmul_xsq_apply {φ₁ φ₂ : FTy} (lhs : FVec Ideal S10000x128 φ₁) (rhs : FVec Ideal S128x128 φ₂) (r : Fin 10000) (j : Fin 128) :
    matmul (F := Ideal) dot_S10000x128_S128x128_S10000x128_1_0_0_1_n_n none lhs rhs (constant S10000x128 .f32 0x00000000#32) (ix2 r j)
      = ∑ k : Fin 128, lhs (ix2 r k) * rhs (ix2 k j) :=
  matmul_plain_apply dot_S10000x128_S128x128_S10000x128_1_0_0_1_n_n rfl rfl rfl rfl rfl rfl lhs rhs r j

/-- The `256 × 10000` by `10000 × 128` product at `(p, j)`. -/
theorem matmul_agg_apply {φ₁ φ₂ : FTy} (lhs : FVec Ideal S256x10000 φ₁) (rhs : FVec Ideal S10000x128 φ₂) (p : Fin 256) (j : Fin 128) :
    matmul (F := Ideal) dot_S256x10000_S10000x128_S256x128_1_0_0_1_n_n none lhs rhs (constant S256x128 .f32 0x00000000#32) (ix2 p j)
      = ∑ k : Fin 10000, lhs (ix2 p k) * rhs (ix2 k j) :=
  matmul_plain_apply dot_S256x10000_S10000x128_S256x128_1_0_0_1_n_n rfl rfl rfl rfl rfl rfl lhs rhs p j

/-- The `256 × 128` by `128 × 128` product at `(p, j)`. -/
theorem matmul_usq_apply {φ₁ φ₂ : FTy} (lhs : FVec Ideal S256x128 φ₁) (rhs : FVec Ideal S128x128 φ₂) (p : Fin 256) (j : Fin 128) :
    matmul (F := Ideal) dot_S256x128_S128x128_S256x128_1_0_0_1_n_n none lhs rhs (constant S256x128 .f32 0x00000000#32) (ix2 p j)
      = ∑ k : Fin 128, lhs (ix2 p k) * rhs (ix2 k j) :=
  matmul_plain_apply dot_S256x128_S128x128_S256x128_1_0_0_1_n_n rfl rfl rfl rfl rfl rfl lhs rhs p j

/-! ## The squared norm as a product with the all-ones matrix -/

/-- The all-ones matrix reads one everywhere. -/
theorem pay1_apply (i : S128x128.Idx) : k0_pay1 (F := Ideal) i = 1 := Ideal.ofBits_one_f32

/-- Row `r` of the squares of `v` against the all-ones matrix: the row's sum of squares, at every column `j`. -/
theorem xsq_ones_apply (v : FVec Ideal S10000x128 .f32) (r : Fin 10000) (j : Fin 128) :
    matmul (F := Ideal) dot_S10000x128_S128x128_S10000x128_1_0_0_1_n_n none (mulf v v) (k0_pay1 (F := Ideal)) (constant S10000x128 .f32 0x00000000#32) (ix2 r j)
      = ∑ k : Fin 128, v (ix2 r k) * v (ix2 r k) := by
  rw [matmul_xsq_apply]
  refine Finset.sum_congr rfl fun k _ => ?_
  rw [pay1_apply, mul_one]
  rfl

/-- The same for a block of `256` rows. -/
theorem usq_ones_apply (v : FVec Ideal S256x128 .f32) (p : Fin 256) (j : Fin 128) :
    matmul (F := Ideal) dot_S256x128_S128x128_S256x128_1_0_0_1_n_n none (mulf v v) (k0_pay1 (F := Ideal)) (constant S256x128 .f32 0x00000000#32) (ix2 p j)
      = ∑ k : Fin 128, v (ix2 p k) * v (ix2 p k) := by
  rw [matmul_usq_apply]
  refine Finset.sum_congr rfl fun k _ => ?_
  rw [pay1_apply, mul_one]
  rfl

/-! ## The two stored values -/

/-- The tangent rows the first point stores, at `(r, j)`. -/
theorem pay2_apply (X : Vec Ideal S10000x128 .f32) (r : Fin 10000) (j : Fin 128) :
    k0_pay2 (F := Ideal) X (ix2 r j) = xtK (fun r k => X (ix2 r k)) r j := by
  simp only [k0_pay2, shapeCast_self]
  -- the squared norm of row `r`, the same at every column
  have hq := xsq_ones_apply X r j
  generalize matmul (F := Ideal) dot_S10000x128_S128x128_S10000x128_1_0_0_1_n_n none (mulf X X) (k0_pay1 (F := Ideal)) (constant S10000x128 .f32 0x00000000#32) = M at hq ⊢
  -- every other operation reads through at the index
  show X (ix2 r j) * Ideal.div (artK (max (Ideal.sqrt (M (ix2 r j))) eps)) (max (Ideal.sqrt (M (ix2 r j))) eps) = _
  rw [hq]
  rfl

/-- The result block a point stores, at `(p, j)`: row `p` of the matrix block against the tangent rows, scaled once. -/
theorem pay3_apply (A : Vec Ideal S256x10000 .f32) (S : Vec Ideal S10000x128 .bf16) (p : Fin 256) (j : Fin 128) :
    k0_pay3 (F := Ideal) A S (ix2 p j) = outRow (uRow (fun k => A (ix2 p k)) (fun k j => S (ix2 k j))) j := by
  simp only [k0_pay3]
  -- row `p` of the first product is the aggregated row
  have hu : ∀ j' : Fin 128, matmul (F := Ideal) (φ₂ := .bf16) dot_S256x10000_S10000x128_S256x128_1_0_0_1_n_n none (truncf .bf16 A bitsLt_bf16_f32) S (constant S256x128 .f32 0x00000000#32) (ix2 p j')
      = uRow (fun k => A (ix2 p k)) (fun k j => S (ix2 k j)) j' := fun j' => matmul_agg_apply (φ₂ := .bf16) _ S p j'
  generalize matmul (F := Ideal) (φ₂ := .bf16) dot_S256x10000_S10000x128_S256x128_1_0_0_1_n_n none (truncf .bf16 A bitsLt_bf16_f32) S (constant S256x128 .f32 0x00000000#32) = u at hu ⊢
  -- its squared norm, the same at every column
  have hq := usq_ones_apply u p j
  generalize matmul (F := Ideal) dot_S256x128_S128x128_S256x128_1_0_0_1_n_n none (mulf u u) (k0_pay1 (F := Ideal)) (constant S256x128 .f32 0x00000000#32) = M at hq ⊢
  -- every other operation reads through at the index
  show u (ix2 p j) * Ideal.div (min (Ideal.tanh (max (Ideal.sqrt (M (ix2 p j))) eps)) mx) (max (Ideal.sqrt (M (ix2 p j))) eps) = _
  rw [hq, Finset.sum_congr rfl fun k _ => by rw [hu k], hu j]
  rfl

end Cert.KernelIdeal.PayValue

end
-- ==== Proof.Final.lean ====
/-
  The kernel's result array over the extended reals.

  ROW LOCALITY holds there because row `p` of a result block is a function of row `p` of the matrix block alone (the
  payload read at an index), and a row the result window's transfer moves is a row the matrix window's transfer
  moves: both windows cut their last block at the array's 10000th row.
  THE RESULT ARRAY: point `t` writes back rows `256·t ‥` (the last point sixteen of them), each row `i` the kernel's
  arrangement `specK` of the argument arrays at row `i`: the matrix block's row is row `i` of the matrix, the
  scratch holds the tangent rows of `x`. The forty blocks cover the array, so it ends holding `specK` everywhere.
-/
import proofs.«139651_g60404420051467_cont_9to1_m_1209_17_alg».proof.Proof.Data
import proofs.«139651_g60404420051467_cont_9to1_m_1209_17_alg».proof.Proof.PayValue

set_option maxRecDepth 16384

noncomputable section

namespace Cert.KernelIdeal.Final

open Cert.KernelIdeal Cert.KernelIdeal.Gen Cert.KernelIdeal.Data Cert.KernelIdeal.PayValue Cert.HypAggSpec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-- The kernel's arrangement of the two argument arrays, as an array. -/
def G (x : Vec Ideal S10000x128 .f32) (a : Vec Ideal S10000x10000 .f32) : Vec Ideal S10000x128 .f32 :=
  fun i => specK (fun r k => x (ix2 r k)) (fun r k => a (ix2 r k)) (i 0) (i 1)

/-! ## The cut sizes and block indices, decided over the forty grid points -/

/-- The two clipped windows cut their blocks alike on the rows and not at all on the columns. -/
theorem xsize_facts : ∀ t : Fin cfg0.N, win0_2.xsize (grid0.coords t) (0 : Fin 2) = win0_1.xsize (grid0.coords t) (0 : Fin 2)
    ∧ win0_1.xsize (grid0.coords t) (1 : Fin 2) = 10000 ∧ win0_2.xsize (grid0.coords t) (1 : Fin 2) = 128 :=
  (by decide +kernel : ∀ t : Fin grid0.N, _)

/-- A row the result window's transfer moves, at any column of the matrix block, is moved by the matrix window's. -/
theorem moved_row (t : Fin cfg0.N) (j : (win0_2.xblock (grid0.coords t)).Idx) (p : Fin 256) (hp : p.val = (j 0).val) (k : Fin 10000) :
    win0_1.moved (grid0.coords t) (ix2 p k) = true := by
  obtain ⟨e0, e1, -⟩ := xsize_facts t
  refine (win0_1.moved_iff (grid0.coords t) (ix2 p k)).mpr fun a => ?_
  match a with
  | ⟨0, _⟩ =>
    show p.val < win0_1.xsize (grid0.coords t) (0 : Fin 2)
    have hj : (j 0).val < win0_2.xsize (grid0.coords t) (0 : Fin 2) := (j 0).isLt
    omega
  | ⟨1, _⟩ =>
    show k.val < win0_1.xsize (grid0.coords t) (1 : Fin 2)
    have hk : k.val < 10000 := k.isLt
    omega

/-- A moved index of the result block, by its coordinates. -/
theorem xinj_res (t : Fin cfg0.N) (j : (win0_2.xblock (grid0.coords t)).Idx) :
    ∃ (p : Fin 256) (q : Fin 128), p.val = (j 0).val ∧ q.val = (j 1).val
      ∧ win0_2.xinj (grid0.coords t) j = (ix2 p q : S256x128.Idx) :=
  ⟨⟨(j 0).val, Nat.lt_of_lt_of_le (j 0).isLt (win0_2.xsize_le (grid0.coords t) 0)⟩,
    ⟨(j 1).val, Nat.lt_of_lt_of_le (j 1).isLt (win0_2.xsize_le (grid0.coords t) 1)⟩, rfl, rfl,
    by funext a; match a with | ⟨0, _⟩ => rfl | ⟨1, _⟩ => rfl⟩

/-- Row locality, over the extended reals. -/
theorem rowLocal : RowLocal Ideal := by
  intro t d d' B S
  funext j
  obtain ⟨p, q, hp, hq, hx⟩ := xinj_res t j
  show k0_pay3 (F := Ideal) (win0_1.fill (grid0.coords t) d B) S (win0_2.xinj (grid0.coords t) j)
    = k0_pay3 (F := Ideal) (win0_1.fill (grid0.coords t) d' B) S (win0_2.xinj (grid0.coords t) j)
  rw [hx, pay3_apply, pay3_apply]
  -- the two filled blocks have the same row `p`: every entry of it is the block's own
  have hrow : (fun k : Fin 10000 => win0_1.fill (grid0.coords t) d B (ix2 p k))
      = fun k : Fin 10000 => win0_1.fill (grid0.coords t) d' B (ix2 p k) := funext fun k => by
    have hm := moved_row t j p hp k
    unfold Window.fill
    rw [dif_pos hm, dif_pos hm]
  rw [hrow]

/-! ## What a point writes back -/

/-- The block indices decided over the grid: point `t`'s matrix and result blocks are block `t` down the rows and the
    only block across the columns; the result block's rows inside the array are `256`, at the last point sixteen. -/
theorem index_facts : ∀ t : Fin cfg0.N,
    win0_2.index t (0 : Fin 2) = t.val ∧ win0_2.index t (1 : Fin 2) = 0
    ∧ win0_1.index t (0 : Fin 2) = t.val ∧ win0_1.index t (1 : Fin 2) = 0
    ∧ win0_2.xsize (grid0.coords t) (0 : Fin 2) = min 256 (10000 - 256 * t.val) :=
  (by decide +kernel : ∀ t : Fin grid0.N, _)

/-- `x`'s block at the first point is the block at the origin. -/
theorem index_x : win0_0.index t₀ (0 : Fin 2) = 0 ∧ win0_0.index t₀ (1 : Fin 2) = 0 := by decide +kernel

/-- `x`'s block at the first point is the whole array. -/
theorem iblk_x (c : Dev nD) (i : S10000x128.Idx) :
    iblk m c 0 t₀ i = m ((c : Thread nD τ).loc main_arg0) i := by
  obtain ⟨e0, e1⟩ := index_x
  show V m c main_arg0 (((cfg0.win 0).blk t₀).view.emb i) = V m c main_arg0 i
  refine congrArg _ (funext fun a => Fin.ext ?_)
  match a with
  | ⟨0, _⟩ => show win0_0.index t₀ (0 : Fin 2) * 10000 + 1 * (i 0).val = (i 0).val; omega
  | ⟨1, _⟩ => show win0_0.index t₀ (1 : Fin 2) * 128 + 1 * (i 1).val = (i 1).val; omega

/-- The scratch holds the tangent rows of `x`. -/
theorem xt_apply (c : Dev nD) (k : Fin 10000) (j : Fin 128) :
    xt m c (ix2 k j) = xtK (fun r k => m ((c : Thread nD τ).loc main_arg0) (ix2 r k)) k j := by
  unfold xt
  rw [pay2_apply]
  exact congrArg (fun X : Fin 10000 → Fin 128 → EReal => xtK X k j) (funext fun r => funext fun k => iblk_x m c (ix2 r k))

/-- Row `p` of the matrix block at point `t`, a row the transfer moves, is row `256 t + p` of the matrix. -/
theorem ablk_row (c : Dev nD) (t : Fin cfg0.N) (j : (win0_2.xblock (grid0.coords t)).Idx) (p : Fin 256) (hp : p.val = (j 0).val)
    (P : Fin 10000) (hP : P.val = t.val * 256 + (j 0).val) (k : Fin 10000) :
    ablk m c t (ix2 p k) = m ((c : Thread nD τ).loc main_arg1) (ix2 P k) := by
  obtain ⟨-, -, e2, e3, -⟩ := index_facts t
  have hm := moved_row t j p hp k
  unfold ablk Window.fill
  rw [dif_pos hm]
  show V m c main_arg1 (((cfg0.win 1).blk t).view.emb _) = V m c main_arg1 (ix2 P k)
  refine congrArg _ (funext fun a => Fin.ext ?_)
  match a with
  | ⟨0, _⟩ => show win0_1.index t (0 : Fin 2) * 256 + 1 * p.val = P.val; omega
  | ⟨1, _⟩ => show win0_1.index t (1 : Fin 2) * 10000 + 1 * k.val = k.val; omega

/-- WHAT POINT `t` WRITES BACK is block `t` of the kernel's arrangement of the argument arrays. -/
theorem flushed_eq (c : Dev nD) (t : Fin cfg0.N) :
    (dats m 0 c).flushed 2 t = ((cfg0.win 2).blk t).view.read (Elt Ideal)
      (G (m ((c : Thread nD τ).loc main_arg0)) (m ((c : Thread nD τ).loc main_arg1))) := by
  show (cfg0.win 2).cut (grid0.coords t) ((dats m 0 c).after 2 t) = _
  rw [after_2]
  funext j
  obtain ⟨e0, e1, -, -, e4⟩ := index_facts t
  obtain ⟨p, q, hp, hq, hx⟩ := xinj_res t j
  have hj : (j 0).val < win0_2.xsize (grid0.coords t) (0 : Fin 2) := (j 0).isLt
  have hPlt : t.val * 256 + (j 0).val < 10000 := by omega
  -- the array index under the block's index `j`: row `256 t + p`, column `q`
  have hE : ((cfg0.win 2).blk t).view.emb j = (ix2 (⟨t.val * 256 + (j 0).val, hPlt⟩ : Fin 10000) q : S10000x128.Idx) := by
    funext a; apply Fin.ext
    match a with
    | ⟨0, _⟩ => show win0_2.index t (0 : Fin 2) * 256 + 1 * (j 0).val = t.val * 256 + (j 0).val; omega
    | ⟨1, _⟩ => show win0_2.index t (1 : Fin 2) * 128 + 1 * (j 1).val = q.val; omega
  show oblk m c t (win0_2.xinj (grid0.coords t) j)
    = G (m ((c : Thread nD τ).loc main_arg0)) (m ((c : Thread nD τ).loc main_arg1)) (((cfg0.win 2).blk t).view.emb j)
  rw [hE, hx]
  unfold oblk
  rw [pay3_apply]
  show _ = outRow (uRow (fun k => m ((c : Thread nD τ).loc main_arg1) (ix2 (⟨t.val * 256 + (j 0).val, hPlt⟩ : Fin 10000) k))
    (xtK fun r k => m ((c : Thread nD τ).loc main_arg0) (ix2 r k))) q
  rw [show (fun k : Fin 10000 => ablk m c t (ix2 p k)) = fun k => m ((c : Thread nD τ).loc main_arg1) (ix2 (⟨t.val * 256 + (j 0).val, hPlt⟩ : Fin 10000) k)
      from funext fun k => ablk_row m c t j p hp _ rfl k,
    show (fun (k : Fin 10000) (j : Fin 128) => xt m c (ix2 k j)) = xtK fun r k => m ((c : Thread nD τ).loc main_arg0) (ix2 r k)
      from funext fun k => funext fun j => xt_apply m c k j]

/-! ## The forty blocks cover the array -/

/-- An index of the array is in point `t`'s block iff each coordinate is in the block's range, cut at the array's end. -/
theorem mem_blk (t : Fin cfg0.N) (i : S10000x128.Idx) :
    i ∈ ((cfg0.win 2).blk t).view.set ↔ ∀ a : Fin 2, win0_2.index t a * S256x128.size a ≤ (i a).val
      ∧ (i a).val < win0_2.index t a * S256x128.size a + win0_2.xsize (grid0.coords t) a := by
  show i ∈ ((View.whole main_v0).slice (win0_2.rect t)).set ↔ _
  rw [View.set_slice_whole, Rect.mem_set_unit]
  exact Iff.rfl

/-- Row `r` is in the block of point `r / 256`. -/
theorem cover (i : S10000x128.Idx) :
    ∃ t : Fin cfg0.N, (cfg0.win 2).flush t = true ∧ i ∈ ((cfg0.win 2).blk t).view.set := by
  have hi0 : (i 0).val < 10000 := (i 0).isLt
  have hi1 : (i 1).val < 128 := (i 1).isLt
  obtain ⟨t, ht⟩ : ∃ t : Fin cfg0.N, t.val = (i 0).val / 256 := ⟨⟨(i 0).val / 256, lt_of_lt_of_eq (by omega) N_0.symm⟩, rfl⟩
  obtain ⟨e0, e1, -, -, e4⟩ := index_facts t
  obtain ⟨-, -, x1⟩ := xsize_facts t
  refine ⟨t, flush0_2 t, ?_⟩
  rw [mem_blk]
  intro a
  match a with
  | ⟨0, _⟩ =>
    show win0_2.index t (0 : Fin 2) * 256 ≤ (i 0).val ∧ (i 0).val < win0_2.index t (0 : Fin 2) * 256 + win0_2.xsize (grid0.coords t) (0 : Fin 2)
    omega
  | ⟨1, _⟩ =>
    show win0_2.index t (1 : Fin 2) * 128 ≤ (i 1).val ∧ (i 1).val < win0_2.index t (1 : Fin 2) * 128 + win0_2.xsize (grid0.coords t) (1 : Fin 2)
    omega

/-- The result array after the run is the kernel's arrangement of the argument arrays. -/
theorem final (c : Dev nD) :
    (dats m 0 c).arrAt 2 cfg0.N = G (m ((c : Thread nD τ).loc main_arg0)) (m ((c : Thread nD τ).loc main_arg1)) := by
  exact (dats m 0 c).arrAt_eq_of_cover 2 (G (m ((c : Thread nD τ).loc main_arg0)) (m ((c : Thread nD τ).loc main_arg1)))
    (fun t _ => flushed_eq m c t) cover

/-- The kernel's run, read: the result array ends at `G` of the arguments, the arguments unchanged. -/
theorem run : θ_run defs (onTc (τ := τ) (main (F := Ideal))) ⟨m, fun _ => 0, ρ⟩ fun r => ∀ c : Dev nD,
      r.2.mem ((c.tc : Thread nD τ).loc main_v0) = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨((h c).1 2).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ rowLocal)

end Cert.KernelIdeal.Final

end
-- ==== Proof.RefValue.lean ====
/-
  The reference's result, read at an index over the extended reals: its last stage at `(i, j)` is the reference's
  arrangement `specR` of the two argument arrays — the logarithmic map of every row of `x`, the aggregation by
  `adj`, the exponential map, and the projection where the mapped row's norm exceeds the radius.
-/
import proofs.«139651_g60404420051467_cont_9to1_m_1209_17_alg».proof.Proof.Gen.ReferenceIdeal.Run
import proofs.«139651_g60404420051467_cont_9to1_m_1209_17_alg».proof.Proof.Gen.ReferenceIdeal.Read
import proofs.«139651_g60404420051467_cont_9to1_m_1209_17_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.HypAggSpec Idealize.ShloMosaic Idealize.ShloMosaic.ValueIdx
open Cert.ReferenceIdeal.Read

/-! ## The composed index maps, at an index given by its coordinates

  A row broadcast reads the column at the row's coordinate and the column's only place; a column reads the vector at
  the row's coordinate; a row sum's summand sits at the row and the summation coordinate; the contraction reads the
  matrix at (row, `k`) and the tangent rows at (`k`, column). -/

theorem idx_v4_ix2 (r : Fin 10000) (j : Fin 128) : idx_main_v4 (ix2 r j) = ix2 r (0 : Fin 1) :=
  funext fun a => Fin.ext (by match a with | ⟨0, _⟩ => rfl | ⟨1, _⟩ => rfl)
theorem idx_v15_ix2 (r : Fin 10000) (j : Fin 128) : idx_main_v15 (ix2 r j) = ix2 r (0 : Fin 1) :=
  funext fun a => Fin.ext (by match a with | ⟨0, _⟩ => rfl | ⟨1, _⟩ => rfl)
theorem idx_v23_ix2 (r : Fin 10000) (j : Fin 128) : idx_main_v23 (ix2 r j) = ix2 r (0 : Fin 1) :=
  funext fun a => Fin.ext (by match a with | ⟨0, _⟩ => rfl | ⟨1, _⟩ => rfl)
theorem idx_v27_ix2 (r : Fin 10000) (j : Fin 128) : idx_main_v27 (ix2 r j) = ix2 r (0 : Fin 1) :=
  funext fun a => Fin.ext (by match a with | ⟨0, _⟩ => rfl | ⟨1, _⟩ => rfl)
theorem idx_v31_ix2 (r : Fin 10000) (j : Fin 128) : idx_main_v31 (ix2 r j) = ix2 r (0 : Fin 1) :=
  funext fun a => Fin.ext (by match a with | ⟨0, _⟩ => rfl | ⟨1, _⟩ => rfl)
theorem idx_call7_v0_ix2 (r : Fin 10000) (j : Fin 128) : idx_main_call7_v0 (ix2 r j) = ix2 r (0 : Fin 1) :=
  funext fun a => Fin.ext (by match a with | ⟨0, _⟩ => rfl | ⟨1, _⟩ => rfl)
theorem idx_call0_v2_ix2 (r : Fin 10000) : idx_main_call0_v2 (ix2 r (0 : Fin 1)) = ix1 r :=
  funext fun a => Fin.ext (by match a with | ⟨0, _⟩ => rfl)
theorem idx_call0_v1_ix1 (r : Fin 10000) (k : Fin 128) : idx_main_call0_v1 (ix1 r) k = ix2 r k :=
  funext fun a => Fin.ext (by match a with | ⟨0, _⟩ => rfl | ⟨1, _⟩ => rfl)
theorem idx_call3_v2_ix2 (r : Fin 10000) : idx_main_call3_v2 (ix2 r (0 : Fin 1)) = ix1 r :=
  funext fun a => Fin.ext (by match a with | ⟨0, _⟩ => rfl)
theorem idx_call3_v1_ix1 (r : Fin 10000) (k : Fin 128) : idx_main_call3_v1 (ix1 r) k = ix2 r k :=
  funext fun a => Fin.ext (by match a with | ⟨0, _⟩ => rfl | ⟨1, _⟩ => rfl)
theorem idx_call5_v2_ix2 (r : Fin 10000) : idx_main_call5_v2 (ix2 r (0 : Fin 1)) = ix1 r :=
  funext fun a => Fin.ext (by match a with | ⟨0, _⟩ => rfl)
theorem idx_call5_v1_ix1 (r : Fin 10000) (k : Fin 128) : idx_main_call5_v1 (ix1 r) k = ix2 r k :=
  funext fun a => Fin.ext (by match a with | ⟨0, _⟩ => rfl | ⟨1, _⟩ => rfl)
theorem lidx_v17_ix2 (i : Fin 10000) (j : Fin 128) (k : Fin 10000) : lidx_main_v17 (ix2 i j) k = ix2 i k :=
  funext fun a => Fin.ext (by match a with | ⟨0, _⟩ => rfl | ⟨1, _⟩ => rfl)
theorem ridx_v17_ix2 (i : Fin 10000) (j : Fin 128) (k : Fin 10000) : ridx_main_v17 (ix2 i j) k = ix2 k j :=
  funext fun a => Fin.ext (by match a with | ⟨0, _⟩ => rfl | ⟨1, _⟩ => rfl)

/-! ## The clipped norm columns -/

/-- The clipped norm column of the argument at row `r` is the clipped norm of that row: the square root of the
    row's sum of squares (the sum starts from the zero word, which is `0`), with `ε` as the maximum's first operand. -/
theorem v1_eq_nrm (x0 : (⟨S10000x128, .f32⟩ : BufTy).Contents (Elt Ideal)) (r : Fin 10000) :
    val_main_v1 (F := Ideal) x0 (ix2 r (0 : Fin 1)) = nrm (fun k => x0 (ix2 r k)) := by
  rw [val_main_v1_apply, val_main_call1_v1_apply, val_main_call1_v0_apply, val_main_cst_apply,
    val_main_v0_apply, val_main_call0_v2_apply, idx_call0_v2_ix2, val_main_call0_v1_apply,
    val_main_call0_cst_apply]
  simp only [val_main_call0_v0_apply, idx_call0_v1_ix1, Ideal.maximumf_def, Ideal.mulf_def,
    Ideal.hostUnary_sqrt_def, Ideal.ofBits_def, Ideal.ofBits_zero_f32, zero_add]
  unfold nrm
  exact max_comm _ _

/-- The same of the aggregated rows. -/
theorem v19_eq_nrm (x0 : (⟨S10000x128, .f32⟩ : BufTy).Contents (Elt Ideal)) (x1 : (⟨S10000x10000, .f32⟩ : BufTy).Contents (Elt Ideal)) (r : Fin 10000) :
    val_main_v19 (F := Ideal) x0 x1 (ix2 r (0 : Fin 1)) = nrm (fun k => val_main_v17 (F := Ideal) x0 x1 (ix2 r k)) := by
  rw [val_main_v19_apply, val_main_call4_v1_apply, val_main_call4_v0_apply, val_main_cst_5_apply,
    val_main_v18_apply, val_main_call3_v2_apply, idx_call3_v2_ix2, val_main_call3_v1_apply,
    val_main_call3_cst_apply]
  simp only [val_main_call3_v0_apply, idx_call3_v1_ix1, Ideal.maximumf_def, Ideal.mulf_def,
    Ideal.hostUnary_sqrt_def, Ideal.ofBits_def, Ideal.ofBits_zero_f32, zero_add]
  unfold nrm
  exact max_comm _ _

/-- The same of the rows mapped back onto the ball. -/
theorem v30_eq_nrm (x0 : (⟨S10000x128, .f32⟩ : BufTy).Contents (Elt Ideal)) (x1 : (⟨S10000x10000, .f32⟩ : BufTy).Contents (Elt Ideal)) (r : Fin 10000) :
    val_main_v30 (F := Ideal) x0 x1 (ix2 r (0 : Fin 1)) = nrm (fun k => val_main_v28 (F := Ideal) x0 x1 (ix2 r k)) := by
  rw [val_main_v30_apply, val_main_call6_v1_apply, val_main_call6_v0_apply, val_main_cst_8_apply,
    val_main_v29_apply, val_main_call5_v2_apply, idx_call5_v2_ix2, val_main_call5_v1_apply,
    val_main_call5_cst_apply]
  simp only [val_main_call5_v0_apply, idx_call5_v1_ix1, Ideal.maximumf_def, Ideal.mulf_def,
    Ideal.hostUnary_sqrt_def, Ideal.ofBits_def, Ideal.ofBits_zero_f32, zero_add]
  unfold nrm
  exact max_comm _ _

/-! ## The tangent rows, their aggregation, and the map back -/

/-- The tangent rows: the row over (one times its clipped norm), times `artanh` of (one times the clipped norm)
    as the difference of two `log1p` halved. -/
theorem v16_eq_xtR (x0 : (⟨S10000x128, .f32⟩ : BufTy).Contents (Elt Ideal)) (r : Fin 10000) (j : Fin 128) :
    val_main_v16 (F := Ideal) x0 (ix2 r j) = xtR (fun r k => x0 (ix2 r k)) r j := by
  simp only [val_main_v16_apply, val_main_v5_apply, val_main_v4_apply, idx_v4_ix2, val_main_v3_apply,
    val_main_v2_apply, val_main_cst_0_apply, val_main_v15_apply, idx_v15_ix2, val_main_v14_apply,
    val_main_v13_apply, val_main_cst_4_apply, val_main_v12_apply, val_main_v9_apply, val_main_v11_apply,
    val_main_v10_apply, val_main_v8_apply, val_main_call2_v4_apply, val_main_call2_v3_apply,
    val_main_cst_3_apply, val_main_call2_v2_apply, val_main_call2_v1_apply, val_main_call2_v0_apply,
    val_main_cst_2_apply, val_main_v7_apply, val_main_v6_apply, val_main_cst_1_apply, v1_eq_nrm,
    Ideal.mulf_def, Ideal.hostDivf_def, Ideal.maximumf_def, Ideal.minimumf_def, Ideal.subf_def,
    Ideal.hostNegf_def, Ideal.negf_def, Ideal.hostUnary_log1p_def, Ideal.ofBits_def]
  rfl

/-- The aggregated rows: the matrix row against the tangent rows. -/
theorem v17_eq_uR (x0 : (⟨S10000x128, .f32⟩ : BufTy).Contents (Elt Ideal)) (x1 : (⟨S10000x10000, .f32⟩ : BufTy).Contents (Elt Ideal)) (i : Fin 10000) (j : Fin 128) :
    val_main_v17 (F := Ideal) x0 x1 (ix2 i j)
      = uR (fun r k => x0 (ix2 r k)) (fun r k => x1 (ix2 r k)) i j := by
  rw [val_main_v17_apply]
  unfold uR
  refine Finset.sum_congr rfl fun k _ => ?_
  rw [lidx_v17_ix2, ridx_v17_ix2, v16_eq_xtR]

/-- The clipped norm of an aggregated row. -/
theorem v19_eq_nrm_uR (x0 : (⟨S10000x128, .f32⟩ : BufTy).Contents (Elt Ideal)) (x1 : (⟨S10000x10000, .f32⟩ : BufTy).Contents (Elt Ideal)) (i : Fin 10000) :
    val_main_v19 (F := Ideal) x0 x1 (ix2 i (0 : Fin 1))
      = nrm (uR (fun r k => x0 (ix2 r k)) (fun r k => x1 (ix2 r k)) i) := by
  rw [v19_eq_nrm]
  exact congrArg nrm (funext fun k => v17_eq_uR x0 x1 i k)

/-- The exponential map at the origin of an aggregated row. -/
theorem v28_eq_yR (x0 : (⟨S10000x128, .f32⟩ : BufTy).Contents (Elt Ideal)) (x1 : (⟨S10000x10000, .f32⟩ : BufTy).Contents (Elt Ideal)) (i : Fin 10000) (j : Fin 128) :
    val_main_v28 (F := Ideal) x0 x1 (ix2 i j)
      = yR (fun r k => x0 (ix2 r k)) (fun r k => x1 (ix2 r k)) i j := by
  simp only [val_main_v28_apply, val_main_v24_apply, val_main_v23_apply, idx_v23_ix2, val_main_v22_apply,
    val_main_v21_apply, val_main_v20_apply, val_main_cst_6_apply, val_main_v27_apply, idx_v27_ix2,
    val_main_v26_apply, val_main_v25_apply, val_main_cst_7_apply, v19_eq_nrm_uR, v17_eq_uR,
    Ideal.mulf_def, Ideal.hostDivf_def, Ideal.hostUnary_tanh_def, Ideal.ofBits_def]
  rfl

/-- The clipped norm of a row mapped back onto the ball. -/
theorem v30_eq_nrm_yR (x0 : (⟨S10000x128, .f32⟩ : BufTy).Contents (Elt Ideal)) (x1 : (⟨S10000x10000, .f32⟩ : BufTy).Contents (Elt Ideal)) (i : Fin 10000) :
    val_main_v30 (F := Ideal) x0 x1 (ix2 i (0 : Fin 1))
      = nrm (yR (fun r k => x0 (ix2 r k)) (fun r k => x1 (ix2 r k)) i) := by
  rw [v30_eq_nrm]
  exact congrArg nrm (funext fun k => v28_eq_yR x0 x1 i k)

/-! ## The projection -/

/-- A selection on the bit of "`a` exceeds `b`" is the conditional on `b < a`. -/
theorem select_ogt (a b p q : EReal) :
    Scalar.select (Ideal.cmp .ogt a b) p q = if b < a then p else q := by
  unfold Scalar.select Ideal.cmp
  by_cases h : b < a
  · simp only [h, decide_true, BitVec.ofBool_true, BitVec.ofNat_eq_ofNat, ↓reduceIte]
  · simp only [h, decide_false, BitVec.ofBool_false, BitVec.ofNat_eq_ofNat, BitVec.zero_eq_one_iff, one_ne_zero,
      ↓reduceIte]

/-- The reference's last stage at `(i, j)` is `specR` of the argument arrays. -/
theorem ref_eq_specR (x0 : (⟨S10000x128, .f32⟩ : BufTy).Contents (Elt Ideal)) (x1 : (⟨S10000x10000, .f32⟩ : BufTy).Contents (Elt Ideal))
    (i : Fin 10000) (j : Fin 128) :
    Cert.ReferenceIdeal.Read.val_main_v37 (F := Ideal) x0 x1 (ix2 i j)
      = specR (fun r k => x0 (ix2 r k)) (fun r k => x1 (ix2 r k)) i j := by
  simp only [val_main_v37_apply, val_main_call7_v0_apply, idx_call7_v0_ix2, val_main_v36_apply,
    val_main_v35_apply, val_main_cst_10_apply, val_main_v34_apply, val_main_v32_apply, val_main_v33_apply,
    val_main_cst_9_apply, val_main_v31_apply, idx_v31_ix2, v30_eq_nrm_yR, v28_eq_yR,
    Ideal.cmpf_def, Ideal.mulf_def, Ideal.hostDivf_def, Ideal.ofBits_def, select_ogt]
  rfl

end Cert.ReferenceIdeal.RefValue

end
-- ==== Proof.Finite.lean ====
/-
  What the precondition says: both argument arrays hold real numbers. The printed predicate compares each entry's
  absolute value with `+∞` and conjoins the answers over each array; an extended real whose absolute value is below
  `+∞` is neither infinity, hence a real.
-/
import proofs.«139651_g60404420051467_cont_9to1_m_1209_17_alg».proof.Pre_finite_inputs
import proofs.«139651_g60404420051467_cont_9to1_m_1209_17_alg».proof.Proof.Gen.Pre_finite_inputs
import Idealize.ShloMosaic.PureOps.Ideal
import Idealize.ShloMosaic.Lib.ReduceAll

noncomputable section

namespace Cert.HypAggFinite

open Idealize.ShloMosaic

/-- The word `0x7F800000` denotes `+∞`: a clear sign bit, an all-ones exponent field and a zero fraction. -/
theorem ofBits_inf : Ideal.ofBits .f32 0x7F800000#32 = (⊤ : EReal) := by
  simp [Ideal.ofBits, Ideal.ieee]

/-- An extended real whose absolute value `max v (-v)` lies strictly below `+∞` is a real number: at `⊥` and at `⊤`
    the absolute value is `⊤` itself, which is not below `⊤`. -/
theorem real_of_abs_lt_top (v : EReal) (h : max v (-v) < ⊤) : ∃ r : ℝ, v = (r : EReal) := by
  induction v using EReal.rec with
  | bot => simp at h
  | coe r => exact ⟨r, rfl⟩
  | top => simp at h

/-- One compared entry. At the ideal values the absolute value is `max v (-v)` and the ordered comparison `<` answers
    the bit of the strict order, so the answer 1 against the word of `+∞` says `max v (-v) < ⊤`. -/
theorem real_of_cmp (v : Ideal .f32)
    (h : FloatOps.cmpf (F := Ideal) .olt (FloatOps.hostAbsf v) (FloatOps.ofBits (F := Ideal) .f32 0x7F800000#32) = 1#1) :
    ∃ r : ℝ, v = (r : EReal) := by
  refine real_of_abs_lt_top v ?_
  have h' : BitVec.ofBool (decide (max v (-v) < Ideal.ofBits .f32 0x7F800000#32)) = 1#1 := h
  rw [ofBits_inf] at h'
  by_contra hn
  rw [decide_eq_false hn] at h'
  exact absurd h' (by decide)

/-- If the printed predicate is all ones of the two arrays, every entry of each is a real number. -/
theorem finite_of_pre (x : FVec Ideal Cert.Pre_finite_inputs.S10000x128 .f32) (a : FVec Ideal Cert.Pre_finite_inputs.S10000x10000 .f32)
    (h : Cert.Pre_finite_inputs.fn (F := Ideal) x a = fun _ => 1#1) :
    (∀ i, ∃ r : ℝ, x i = (r : EReal)) ∧ (∀ i, ∃ r : ℝ, a i = (r : EReal)) := by
  -- the rank-0 result has exactly one index
  haveI : Subsingleton Cert.Pre_finite_inputs.S_.Idx := ⟨fun a b => funext fun d => d.elim0⟩
  -- the predicate read at that index: the conjunction of the two arrays' answers
  have h0 := congrFun h (fun d => d.elim0)
  dsimp only [Cert.Pre_finite_inputs.fn] at h0
  -- a conjunction that is 1 has both conjuncts 1; each conjunct is a conjunction over a whole array, so every
  -- entry's comparison answered 1
  obtain ⟨hx, ha⟩ := IntOp.andi_eq_one.1 h0
  refine ⟨fun i => ?_, fun i => ?_⟩
  · exact real_of_cmp (x i) (Host.reduce_andi_all _ _ _ _ _ hx i)
  · exact real_of_cmp (a i) (Host.reduce_andi_all _ _ _ _ _ ha i)

end Cert.HypAggFinite

end
-- ==== Proof.lean ====
/-
  The certificate: the hyperbolic aggregation kernel against its jnp reference, over the extended reals.

  Both programs send every row of `x` to the tangent space at the origin (scaling it by `artanh ‖row‖ / ‖row‖`),
  aggregate the tangent rows by the dense matrix `adj`, and send each aggregated row `u` back onto the Poincaré
  ball and inside the radius `μ = 0.996`. The kernel keeps the tangent rows in a scratch buffer written at the first
  grid point, computes a block of 256 aggregated rows per point (the fortieth block only sixteen rows of it inside
  the array), and scales each row once, by `min (tanh ‖u‖) μ / ‖u‖`; the reference maps `u` to
  `y = tanh ‖u‖ · u / ‖u‖`, measures `‖y‖` again and rescales where `‖y‖ > μ`.

  The frames: the word-level kernel's from a run that forgets what the staging buffers hold; the idealized kernel's
  from the run that names them; the reference's from its generated run.
  The value claim: the kernel's result array is its arrangement of the argument arrays (the payloads read at an index,
  the forty blocks assembled), the reference's last stage is its arrangement (the generated read-at-an-index lemmas),
  and on finite inputs — which is what the precondition says — every intermediate is a real number and the two
  arrangements agree: `‖y‖ = tanh ‖u‖ · ‖u‖ / max ‖u‖ ε`, which is `tanh ‖u‖` unless `‖u‖ < ε`, and then below `ε < μ`.
  The idealization rewrote no operation, so `preserves` has no conjunct.
-/
import proofs.«139651_g60404420051467_cont_9to1_m_1209_17_alg».proof.Defs
import proofs.«139651_g60404420051467_cont_9to1_m_1209_17_alg».proof.Proof.Gen.Kernel
import proofs.«139651_g60404420051467_cont_9to1_m_1209_17_alg».proof.Proof.Gen.KernelIdeal
import proofs.«139651_g60404420051467_cont_9to1_m_1209_17_alg».proof.Proof.Gen.ReferenceIdeal
import proofs.«139651_g60404420051467_cont_9to1_m_1209_17_alg».proof.Proof.Gen.Pre_finite_inputs
import proofs.«139651_g60404420051467_cont_9to1_m_1209_17_alg».proof.Proof.FrameK
import proofs.«139651_g60404420051467_cont_9to1_m_1209_17_alg».proof.Proof.Final
import proofs.«139651_g60404420051467_cont_9to1_m_1209_17_alg».proof.Proof.RefValue
import proofs.«139651_g60404420051467_cont_9to1_m_1209_17_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem

/-- The word-level kernel runs to its end and leaves its arguments as they were. -/
theorem frame_k : Cert.frame_Kernel := fun m ρ _ => Cert.Kernel.FrameK.frame (F := Bits) m ρ

/-- So does the idealized kernel. -/
theorem frame_ki : Cert.frame_KernelIdeal := fun m ρ _ =>
  Cert.KernelIdeal.Data.frame (F := Ideal) m ρ Cert.KernelIdeal.Final.rowLocal

/-- So does the reference: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs run, and the reference's result is the kernel's: both
    arrangements of the same arrays, which hold real numbers by the precondition. -/
theorem algebraic : Cert.algebraic_KernelIdeal_ReferenceIdeal := by
  intro m ρ m' ρ' hpre hagree
  refine ⟨fun c => Cert.KernelIdeal.Final.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨hx, ha⟩ := Cert.HypAggFinite.finite_of_pre _ _ (hpre c)
  rw [Cert.ReferenceIdeal.Read.val_main_v37_eq m' c, (hagree c).1, (hagree c).2]
  funext i
  obtain ⟨p, q, rfl⟩ : ∃ (p : Fin 10000) (q : Fin 128), i = ix2 p q := ⟨i 0, i 1, eq_ix2 i⟩
  refine (Cert.ReferenceIdeal.RefValue.ref_eq_specR _ _ p q).trans ?_
  exact (Cert.HypAggSpec.specK_eq_specR _ _ (fun r k => hx (ix2 r k)) (fun r k => ha (ix2 r k)) p q).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
